-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S160000x256 : Shape := ⟨2, ![160000, 256]⟩
abbrev S160000x2 : Shape := ⟨2, ![160000, 2]⟩
abbrev S512x512 : Shape := ⟨2, ![512, 512]⟩
abbrev S512 : Shape := ⟨1, ![512]⟩
abbrev S512x1152 : Shape := ⟨2, ![512, 1152]⟩
abbrev S1152 : Shape := ⟨1, ![1152]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S160000x256 : S_.BroadcastsInDim S160000x256 (![] : Fin 0 → Fin S160000x256.rank)
  reducesTo_S160000x256_S_d0_1 : S160000x256.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1152 : S_.BroadcastsInDim S512x1152 (![] : Fin 0 → Fin S512x1152.rank)
  reducesTo_S512x1152_S_d0_1 : S512x1152.ReducesTo [0, 1] S_
  bcast_S_S1152 : S_.BroadcastsInDim S1152 (![] : Fin 0 → Fin S1152.rank)
  reducesTo_S1152_S_d0 : S1152.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S160000x2 : S_.BroadcastsInDim S160000x2 (![] : Fin 0 → Fin S160000x2.rank)
  reducesTo_S160000x2_S_d0_1 : S160000x2.ReducesTo [0, 1] S_

variable [Facts]

def fn_part4 {F : FTy → Type} [FloatOps F] (main_arg2 : IVec S160000x2 32) (main_v63 : IVec S_ 1) (main_v67 : IVec S_ 1) : IVec S_ 1 :=
  let main_v68 : IVec S_ 1 := andi main_v63 main_v67
  let main_c_26 : IVec S_ 32 := constantI S_ 32 4294957296#32
  let main_v69 : IVec S160000x2 32 := broadcastInDim S160000x2 ![] bcast_S_S160000x2 main_c_26
  let main_v70 : IVec S160000x2 1 := cmpi .sge main_arg2 main_v69
  let main_c_27 : IVec S_ 32 := constantI S_ 32 10000#32
  let main_v71 : IVec S160000x2 32 := broadcastInDim S160000x2 ![] bcast_S_S160000x2 main_c_27
  let main_v72 : IVec S160000x2 1 := cmpi .slt main_arg2 main_v71
  let main_v73 : IVec S160000x2 1 := andi main_v70 main_v72
  let main_c_28 : IVec S_ 1 := constantI S_ 1 1#1
  let main_v74 : IVec S_ 1 := (fun x v => Host.reduce IntOp.andi x v reducesTo_S160000x2_S_d0_1 h_S_) main_v73 main_c_28
  let main_v75 : IVec S_ 1 := andi main_v68 main_v74
  main_v75

def fn_part3 {F : FTy → Type} [FloatOps F] (main_arg2 : IVec S160000x2 32) (main_arg12 : FVec F S128 .f32) (main_arg13 : FVec F S256x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_v63 main_v67

def fn_part2 {F : FTy → Type} [FloatOps F] (main_arg2 : IVec S160000x2 32) (main_arg8 : FVec F S512 .f32) (main_arg9 : FVec F S512x128 .f32) (main_arg10 : FVec F S128 .f32) (main_arg11 : FVec F S128x128 .f32) (main_arg12 : FVec F S128 .f32) (main_arg13 : FVec F S256x128 .f32) (main_arg14 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg2 main_arg12 main_arg13 main_arg14 main_v48 main_v49 main_v50

def fn_part1 {F : FTy → Type} [FloatOps F] (main_arg2 : IVec S160000x2 32) (main_arg5 : FVec F S512x1152 .f32) (main_arg6 : FVec F S1152 .f32) (main_arg7 : FVec F S512x512 .f32) (main_arg8 : FVec F S512 .f32) (main_arg9 : FVec F S512x128 .f32) (main_arg10 : FVec F S128 .f32) (main_arg11 : FVec F S128x128 .f32) (main_arg12 : FVec F S128 .f32) (main_arg13 : FVec F S256x128 .f32) (main_arg14 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1152 .f32 := Host.absf main_arg5
  let main_cst_6 : FVec F S_ .f32 := constant S_ .f32 0x7F800000#32
  let main_v20 : FVec F S512x1152 .f32 := broadcastInDim S512x1152 ![] bcast_S_S512x1152 main_cst_6
  let main_v21 : IVec S512x1152 1 := cmpf .olt main_v19 main_v20
  let main_c_7 : IVec S_ 1 := constantI S_ 1 1#1
  let main_v22 : IVec S_ 1 := (fun x v => Host.reduce IntOp.andi x v reducesTo_S512x1152_S_d0_1 h_S_) main_v21 main_c_7
  let main_v23 : IVec S_ 1 := andi main_v18 main_v22
  let main_v24 : FVec F S1152 .f32 := Host.absf main_arg6
  let main_cst_8 : FVec F S_ .f32 := constant S_ .f32 0x7F800000#32
  let main_v25 : FVec F S1152 .f32 := broadcastInDim S1152 ![] bcast_S_S1152 main_cst_8
  let main_v26 : IVec S1152 1 := cmpf .olt main_v24 main_v25
  let main_c_9 : IVec S_ 1 := constantI S_ 1 1#1
  let main_v27 : IVec S_ 1 := (fun x v => Host.reduce IntOp.andi x v reducesTo_S1152_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S10000x128 .f32) (main_arg1 : FVec F S160000x256 .f32) (main_arg2 : IVec S160000x2 32) (main_arg3 : FVec F S512x512 .f32) (main_arg4 : FVec F S512 .f32) (main_arg5 : FVec F S512x1152 .f32) (main_arg6 : FVec F S1152 .f32) (main_arg7 : FVec F S512x512 .f32) (main_arg8 : FVec F S512 .f32) (main_arg9 : FVec F S512x128 .f32) (main_arg10 : FVec F S128 .f32) (main_arg11 : FVec F S128x128 .f32) (main_arg12 : FVec F S128 .f32) (main_arg13 : FVec F S256x128 .f32) (main_arg14 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S160000x256 .f32 := Host.absf main_arg1
  let main_cst_0 : FVec F S_ .f32 := constant S_ .f32 0x7F800000#32
  let main_v5 : FVec F S160000x256 .f32 := broadcastInDim S160000x256 ![] bcast_S_S160000x256 main_cst_0
  let main_v6 : IVec S160000x256 1 := cmpf .olt main_v4 main_v5
  let main_c_1 : IVec S_ 1 := constantI S_ 1 1#1
  let main_v7 : IVec S_ 1 := (fun x v => Host.reduce IntOp.andi x v reducesTo_S160000x256_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S10000x128 : Shape := ⟨2, ![10000, 128]⟩
abbrev S160000x256 : Shape := ⟨2, ![160000, 256]⟩
abbrev S160000x2 : Shape := ⟨2, ![160000, 2]⟩
abbrev S512x512 : Shape := ⟨2, ![512, 512]⟩
abbrev S512 : Shape := ⟨1, ![512]⟩
abbrev S512x1152 : Shape := ⟨2, ![512, 1152]⟩
abbrev S1152 : Shape := ⟨1, ![1152]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S160000x1 : Shape := ⟨2, ![160000, 1]⟩
abbrev S160000 : Shape := ⟨1, ![160000]⟩
abbrev S_ : Shape := ⟨0, ![]⟩
abbrev S1 : Shape := ⟨1, ![1]⟩
abbrev S1x1 : Shape := ⟨2, ![1, 1]⟩
abbrev S160000x128 : Shape := ⟨2, ![160000, 128]⟩
abbrev S1x512 : Shape := ⟨2, ![1, 512]⟩
abbrev S1x1152 : Shape := ⟨2, ![1, 1152]⟩
abbrev S1x128 : Shape := ⟨2, ![1, 128]⟩
abbrev S160000x512 : Shape := ⟨2, ![160000, 512]⟩
abbrev S1280x128 : Shape := ⟨2, ![1280, 128]⟩
abbrev S1280x256 : Shape := ⟨2, ![1280, 256]⟩
abbrev S1280x512 : Shape := ⟨2, ![1280, 512]⟩
abbrev S1280x1152 : Shape := ⟨2, ![1280, 1152]⟩
abbrev S10000x512 : Shape := ⟨2, ![10000, 512]⟩
abbrev S10000 : Shape := ⟨1, ![10000]⟩
abbrev S10000x1 : Shape := ⟨2, ![10000, 1]⟩
abbrev S2000x512 : Shape := ⟨2, ![2000, 512]⟩
abbrev S2000x128 : Shape := ⟨2, ![2000, 128]⟩

abbrev nBuf : Space → Nat
  | .hbm => 129
  | .vmem => 30
  | .smem => 0
  | _ => 0

abbrev hbmTy0_0 (i : Nat) : BufTy := match i % 128 with
  | 0 => ⟨S10000x128, .f32⟩
  | 1 => ⟨S160000x256, .f32⟩
  | 2 => ⟨S160000x2, .i32⟩
  | 3 => ⟨S512x512, .f32⟩
  | 4 => ⟨S512, .f32⟩
  | 5 => ⟨S512x1152, .f32⟩
  | 6 => ⟨S1152, .f32⟩
  | 7 => ⟨S512x512, .f32⟩
  | 8 => ⟨S512, .f32⟩
  | 9 => ⟨S512x128, .f32⟩
  | 10 => ⟨S128, .f32⟩
  | 11 => ⟨S128x128, .f32⟩
  | 12 => ⟨S128, .f32⟩
  | 13 => ⟨S256x128, .f32⟩
  | 14 => ⟨S128, .f32⟩
  | 15 => ⟨S160000x1, .i32⟩
  | 16 => ⟨S160000, .i32⟩
  | 17 => ⟨S160000x1, .i32⟩
  | 18 => ⟨S160000, .i32⟩
  | 19 => ⟨S_, .i32⟩
  | 20 => ⟨S160000, .i32⟩
  | 21 => ⟨S160000, .i1⟩
  | 22 => ⟨S_, .i32⟩
  | 23 => ⟨S160000, .i32⟩
  | 24 => ⟨S160000, .i32⟩
  | 25 => ⟨S160000, .i32⟩
  | 26 => ⟨S160000x1, .i32⟩
  | 27 => ⟨S1, .i32⟩
  | 28 => ⟨S_, .i32⟩
  | 29 => ⟨S160000x1, .i32⟩
  | 30 => ⟨S160000x1, .i1⟩
  | 31 => ⟨S1x1, .i32⟩
  | 32 => ⟨S160000x1, .i32⟩
  | 33 => ⟨S160000x1, .i1⟩
  | 34 => ⟨S160000x1, .i1⟩
  | 35 => ⟨S_, .i1⟩
  | 36 => ⟨S160000, .i1⟩
  | 37 => ⟨S160000x128, .f32⟩
  | 38 => ⟨S160000x128, .i1⟩
  | 39 => ⟨S_, .f32⟩
  | 40 => ⟨S160000x128, .f32⟩
  | 41 => ⟨S160000x128, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S1, .i32⟩
  | 51 => ⟨S_, .i32⟩
  | 52 => ⟨S160000x1, .i32⟩
  | 53 => ⟨S160000x1, .i1⟩
  | 54 => ⟨S1x1, .i32⟩
  | 55 => ⟨S160000x1, .i32⟩
  | 56 => ⟨S160000x1, .i1⟩
  | 57 => ⟨S160000x1, .i1⟩
  | 58 => ⟨S_, .i1⟩
  | 59 => ⟨S160000, .i1⟩
  | 60 => ⟨S160000x128, .f32⟩
  | 61 => ⟨S160000x128, .i1⟩
  | 62 => ⟨S_, .f32⟩
  | 63 => ⟨S160000x128, .f32⟩
  | 64 => ⟨S160000x128, .f32⟩
  | 65 => ⟨S512x512, .bf16⟩
  | 66 => ⟨S512x1152, .bf16⟩
  | 67 => ⟨S256x128, .bf16⟩
  | 68 => ⟨S1x512, .f32⟩
  | 69 => ⟨S1x1152, .f32⟩
  | 70 => ⟨S1x128, .f32⟩
  | 71 => ⟨S160000x512, .f32⟩
  | 72 => ⟨S160000x128, .f32⟩
  | 73 => ⟨S160000x512, .f32⟩
  | 74 => ⟨S_, .f32⟩
  | 75 => ⟨S10000x512, .f32⟩
  | 76 => ⟨S_, .i32⟩
  | 77 => ⟨S160000, .i32⟩
  | 78 => ⟨S160000, .i1⟩
  | 79 => ⟨S_, .i32⟩
  | 80 => ⟨S160000, .i32⟩
  | 81 => ⟨S160000, .i32⟩
  | 82 => ⟨S160000, .i32⟩
  | 83 => ⟨S160000x1, .i32⟩
  | 84 => ⟨S10000x512, .f32⟩
  | 85 => ⟨S_, .i32⟩
  | 86 => ⟨S160000, .i32⟩
  | 87 => ⟨S160000, .i1⟩
  | 88 => ⟨S_, .i32⟩
  | 89 => ⟨S160000, .i32⟩
  | 90 => ⟨S160000, .i32⟩
  | 91 => ⟨S160000, .i32⟩
  | 92 => ⟨S160000x1, .i32⟩
  | 93 => ⟨S10000x512, .f32⟩
  | 94 => ⟨S_, .f32⟩
  | 95 => ⟨S160000, .f32⟩
  | 96 => ⟨S_, .f32⟩
  | 97 => ⟨S10000, .f32⟩
  | 98 => ⟨S_, .i32⟩
  | 99 => ⟨S160000, .i32⟩
  | 100 => ⟨S160000, .i1⟩
  | 101 => ⟨S_, .i32⟩
  | 102 => ⟨S160000, .i32⟩
  | 103 => ⟨S160000, .i32⟩
  | 104 => ⟨S160000, .i32⟩
  | 105 => ⟨S160000x1, .i32⟩
  | 106 => ⟨S10000, .f32⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S10000, .f32⟩
  | 116 => ⟨S_, .f32⟩
  | 117 => ⟨S10000, .f32⟩
  | 118 => ⟨S10000, .f32⟩
  | 119 => ⟨S10000x1, .f32⟩
  | 120 => ⟨S10000x512, .f32⟩
  | 121 => ⟨S10000x512, .f32⟩
  | 122 => ⟨S512x512, .bf16⟩
  | 123 => ⟨S512x128, .bf16⟩
  | 124 => ⟨S128x128, .bf16⟩
  | 125 => ⟨S1x512, .f32⟩
  | 126 => ⟨S1x128, .f32⟩
  | 127 => ⟨S1x128, .f32⟩
  | _ => ⟨S10000x128, .f32⟩

abbrev hbmTy0_1 (i : Nat) : BufTy := match i % 128 with
  | 0 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1280x128, .f32⟩
  | .local _ .vmem, ⟨1, _⟩ => ⟨S1280x128, .f32⟩
  | .local _ .vmem, ⟨2, _⟩ => ⟨S1280x256, .f32⟩
  | .local _ .vmem, ⟨3, _⟩ => ⟨S1280x256, .f32⟩
  | .local _ .vmem, ⟨4, _⟩ => ⟨S1280x128, .f32⟩
  | .local _ .vmem, ⟨5, _⟩ => ⟨S1280x128, .f32⟩
  | .local _ .vmem, ⟨6, _⟩ => ⟨S512x512, .bf16⟩
  | .local _ .vmem, ⟨7, _⟩ => ⟨S1x512, .f32⟩
  | .local _ .vmem, ⟨8, _⟩ => ⟨S512x1152, .bf16⟩
  | .local _ .vmem, ⟨9, _⟩ => ⟨S1x1152, .f32⟩
  | .local _ .vmem, ⟨10, _⟩ => ⟨S256x128, .bf16⟩
  | .local _ .vmem, ⟨11, _⟩ => ⟨S1x128, .f32⟩
  | .local _ .vmem, ⟨12, _⟩ => ⟨S1280x512, .f32⟩
  | .local _ .vmem, ⟨13, _⟩ => ⟨S1280x512, .f32⟩
  | .local _ .vmem, ⟨14, _⟩ => ⟨S1280x128, .f32⟩
  | .local _ .vmem, ⟨15, _⟩ => ⟨S1280x128, .f32⟩
  | .local _ .vmem, ⟨16, _⟩ => ⟨S1280x512, .f32⟩
  | .local _ .vmem, ⟨17, _⟩ => ⟨S1280x512, .f32⟩
  | .local _ .vmem, ⟨18, _⟩ => ⟨S2000x512, .f32⟩
  | .local _ .vmem, ⟨19, _⟩ => ⟨S2000x512, .f32⟩
  | .local _ .vmem, ⟨20, _⟩ => ⟨S2000x128, .f32⟩
  | .local _ .vmem, ⟨21, _⟩ => ⟨S2000x128, .f32⟩
  | .local _ .vmem, ⟨22, _⟩ => ⟨S512x512, .bf16⟩
  | .local _ .vmem, ⟨23, _⟩ => ⟨S1x512, .f32⟩
  | .local _ .vmem, ⟨24, _⟩ => ⟨S512x128, .bf16⟩
  | .local _ .vmem, ⟨25, _⟩ => ⟨S1x128, .f32⟩
  | .local _ .vmem, ⟨26, _⟩ => ⟨S128x128, .bf16⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12_0 : Ref sig .tc := ⟨.hbm, 71, rfl⟩
abbrev main_v12_1 : Ref sig .tc := ⟨.hbm, 72, rfl⟩
abbrev main_v12_2 : Ref sig .tc := ⟨.hbm, 73, rfl⟩
abbrev main_cst : Ref sig .tc := ⟨.hbm, 74, rfl⟩
abbrev main_v13 : Ref sig .tc := ⟨.hbm, 75, rfl⟩
abbrev main_c : Ref sig .tc := ⟨.hbm, 76, rfl⟩
abbrev main_v14 : Ref sig .tc := ⟨.hbm, 77, rfl⟩
abbrev main_v15 : Ref sig .tc := ⟨.hbm, 78, rfl⟩
abbrev main_c_0 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_c_1 : Ref sig .tc := ⟨.hbm, 85, rfl⟩
abbrev main_v21 : Ref sig .tc := ⟨.hbm, 86, rfl⟩
abbrev main_v22 : Ref sig .tc := ⟨.hbm, 87, rfl⟩
abbrev main_c_2 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_cst_3 : Ref sig .tc := ⟨.hbm, 94, rfl⟩
abbrev main_v28 : Ref sig .tc := ⟨.hbm, 95, rfl⟩
abbrev main_cst_4 : Ref sig .tc := ⟨.hbm, 96, rfl⟩
abbrev main_v29 : Ref sig .tc := ⟨.hbm, 97, rfl⟩
abbrev main_c_5 : Ref sig .tc := ⟨.hbm, 98, rfl⟩
abbrev main_v30 : Ref sig .tc := ⟨.hbm, 99, rfl⟩
abbrev main_v31 : Ref sig .tc := ⟨.hbm, 100, rfl⟩
abbrev main_c_6 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_c_7 : Ref sig .tc := ⟨.hbm, 107, rfl⟩
abbrev main_v37 : Ref sig .tc := ⟨.hbm, 108, rfl⟩
abbrev main_v38 : Ref sig .tc := ⟨.hbm, 109, rfl⟩
abbrev main_c_8 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_cst_9 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1280x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1280x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1280x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S160000x2_S160000x1_0_0 : S160000x2.Slices ![0, 0] S160000x1
  shapeCasts_S160000x1_S160000 : S160000x1.ShapeCasts S160000
  slices_S160000x2_S160000x1_0_1 : S160000x2.Slices ![0, 1] S160000x1
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  reducesTo_S160000x1_S160000_d1 : S160000x1.ReducesTo [1] S160000
  h_S_ : 0 < S_.numel
  bcast_S160000_S160000x128_0 : S160000.BroadcastsInDim S160000x128 (![0] : Fin 1 → Fin S160000x128.rank)
  bcast_S_S160000x128 : S_.BroadcastsInDim S160000x128 (![] : Fin 0 → Fin S160000x128.rank)
  bitsLt_bf16_f32 : FTy.bits .bf16 < FTy.bits .f32
  shapeCasts_S512_S1x512 : S512.ShapeCasts S1x512
  shapeCasts_S1152_S1x1152 : S1152.ShapeCasts S1x1152
  shapeCasts_S128_S1x128 : S128.ShapeCasts S1x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1280x256_S1280x256_0_0 : ∀ a, (![0, 0] : Fin 2 → Nat) a + S1280x256.size a ≤ S1280x256.size a
  h_S1280x256 : 0 < S1280x256.numel
  concatenates_S1280x128_S1280x256_S1280x128_S1280x512_d1 : Shape.Concatenates [S1280x128, S1280x256, S1280x128] S1280x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1280x512 : S1x512.Broadcasts S1280x512
  inb_S512x1152_S512x1152_0_0 : ∀ a, (![0, 0] : Fin 2 → Nat) a + S512x1152.size a ≤ S512x1152.size a
  h_S512x1152 : 0 < S512x1152.numel
  shapeCasts_S512x1152_S512x1152 : S512x1152.ShapeCasts S512x1152
  inb_S1x1152_S1x1152_0_0 : ∀ a, (![0, 0] : Fin 2 → Nat) a + S1x1152.size a ≤ S1x1152.size a
  h_S1x1152 : 0 < S1x1152.numel
  shapeCasts_S1x1152_S1x1152 : S1x1152.ShapeCasts S1x1152
  broadcasts_S1x1152_S1280x1152 : S1x1152.Broadcasts S1280x1152
  slices_S1280x1152_o0_0_S1280x512 : S1280x1152.Slices ![0, 0] S1280x512
  slices_S1280x1152_o0_512_S1280x128 : S1280x1152.Slices ![0, 512] S1280x128
  slices_S1280x1152_o0_640_S1280x512 : S1280x1152.Slices ![0, 640] S1280x512
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  inb_S1280x512_S1280x512_0_0 : ∀ a, (![0, 0] : Fin 2 → Nat) a + S1280x512.size a ≤ S1280x512.size a
  h_S1280x512 : 0 < S1280x512.numel
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  broadcasts_S1x512_S2000x512 : S1x512.Broadcasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S10000x128_S160000x1_S160000x128_1_0_n_n_0_1_1128_wf : GatherDims.WF S10000x128 S160000x1 S160000x128 [1] [0] [] [0] [] 1 ![1, 128]
  dot_S1280x512_S512x512_S1280x512_1_0_0_1_n_n_wf : DotDims.WF S1280x512 S512x512 S1280x512 [1] [0] [0] [1] [] []
  dot_S1280x512_S512x1152_S1280x1152_1_0_0_1_n_n_wf : DotDims.WF S1280x512 S512x1152 S1280x1152 [1] [0] [0] [1] [] []
  dot_S1280x256_S256x128_S1280x128_1_0_0_1_n_n_wf : DotDims.WF S1280x256 S256x128 S1280x128 [1] [0] [0] [1] [] []
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S160000x128.size a
  hwx0_0 : ∀ i : grid0.Coords, EltTy.bits .f32 = 32 ∨ (Rect.block (s := S160000x128) S1280x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x256.size a ≤ S160000x256.size a
  hwx0_1 : ∀ i : grid0.Coords, EltTy.bits .f32 = 32 ∨ (Rect.block (s := S160000x256) S1280x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x128.size a ≤ S160000x128.size a
  hwx0_2 : ∀ i : grid0.Coords, EltTy.bits .f32 = 32 ∨ (Rect.block (s := S160000x128) S1280x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1152.size a ≤ S512x1152.size a
  hwx0_5 : ∀ i : grid0.Coords, EltTy.bits .bf16 = 32 ∨ (Rect.block (s := S512x1152) S512x1152.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1152.size a ≤ S1x1152.size a
  hwx0_6 : ∀ i : grid0.Coords, EltTy.bits .f32 = 32 ∨ (Rect.block (s := S1x1152) S1x1152.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1280x512.size a ≤ S160000x512.size a
  hwx0_9 : ∀ i : grid0.Coords, EltTy.bits .f32 = 32 ∨ (Rect.block (s := S160000x512) S1280x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1280x128.size a ≤ S160000x128.size a
  hwx0_10 : ∀ i : grid0.Coords, EltTy.bits .f32 = 32 ∨ (Rect.block (s := S160000x128) S1280x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1280x512.size a ≤ S160000x512.size a
  hwx0_11 : ∀ i : grid0.Coords, EltTy.bits .f32 = 32 ∨ (Rect.block (s := S160000x512) S1280x512.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .f32 = 32 ∨ (Rect.block (s := S10000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .bf16 = 32 ∨ (Rect.block (s := S512x128) S512x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S10000x128.size a
  hwx1_8 : ∀ i : grid1.Coords, EltTy.bits .f32 = 32 ∨ (Rect.block (s := S10000x128) S2000x128.size (cc1_transform_8 i) (hinb1_8 i)).WholeWords (EltTy.packing .f32)

variable [Facts₀]

def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def dot_S1280x512_S512x512_S1280x512_1_0_0_1_n_n : DotDims S1280x512 S512x512 S1280x512 where
  lhsContracting := [1]
  rhsContracting := [0]
  lhsNonContracting := [0]
  rhsNonContracting := [1]
  lhsBatch := []
  rhsBatch := []
  wf := dot_S1280x512_S512x512_S1280x512_1_0_0_1_n_n_wf
def dot_S1280x512_S512x1152_S1280x1152_1_0_0_1_n_n : DotDims S1280x512 S512x1152 S1280x1152 where
  lhsContracting := [1]
  rhsContracting := [0]
  lhsNonContracting := [0]
  rhsNonContracting := [1]
  lhsBatch := []
  rhsBatch := []
  wf := dot_S1280x512_S512x1152_S1280x1152_1_0_0_1_n_n_wf
def dot_S1280x256_S256x128_S1280x128_1_0_0_1_n_n : DotDims S1280x256 S256x128 S1280x128 where
  lhsContracting := [1]
  rhsContracting := [0]
  lhsNonContracting := [0]
  rhsNonContracting := [1]
  lhsBatch := []
  rhsBatch := []
  wf := dot_S1280x256_S256x128_S1280x128_1_0_0_1_n_n_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v4) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1280x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x1152.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1152.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12_0) S1280x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_1) S1280x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_2) S1280x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v48) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v55) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S10000x128 : Shape := ⟨2, ![10000, 128]⟩
abbrev S160000x256 : Shape := ⟨2, ![160000, 256]⟩
abbrev S160000x2 : Shape := ⟨2, ![160000, 2]⟩
abbrev S512x512 : Shape := ⟨2, ![512, 512]⟩
abbrev S512 : Shape := ⟨1, ![512]⟩
abbrev S512x1152 : Shape := ⟨2, ![512, 1152]⟩
abbrev S1152 : Shape := ⟨1, ![1152]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S160000x1 : Shape := ⟨2, ![160000, 1]⟩
abbrev S160000 : Shape := ⟨1, ![160000]⟩
abbrev S_ : Shape := ⟨0, ![]⟩
abbrev S160000x128 : Shape := ⟨2, ![160000, 128]⟩
abbrev S160000x512 : Shape := ⟨2, ![160000, 512]⟩
abbrev S1x512 : Shape := ⟨2, ![1, 512]⟩
abbrev S160000x1152 : Shape := ⟨2, ![160000, 1152]⟩
abbrev S1x1152 : Shape := ⟨2, ![1, 1152]⟩
abbrev S10000x512 : Shape := ⟨2, ![10000, 512]⟩
abbrev S10000 : Shape := ⟨1, ![10000]⟩
abbrev S10000x1 : Shape := ⟨2, ![10000, 1]⟩
abbrev S1x128 : Shape := ⟨2, ![1, 128]⟩

abbrev nBuf : Space → Nat
  | .hbm => 127
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S160000x256, .f32⟩
  | .hbm, ⟨2, _⟩ => ⟨S160000x2, .i32⟩
  | .hbm, ⟨3, _⟩ => ⟨S512x512, .f32⟩
  | .hbm, ⟨4, _⟩ => ⟨S512, .f32⟩
  | .hbm, ⟨5, _⟩ => ⟨S512x1152, .f32⟩
  | .hbm, ⟨6, _⟩ => ⟨S1152, .f32⟩
  | .hbm, ⟨7, _⟩ => ⟨S512x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S160000x1, .i32⟩
  | .hbm, ⟨16, _⟩ => ⟨S160000, .i32⟩
  | .hbm, ⟨17, _⟩ => ⟨S160000x1, .i32⟩
  | .hbm, ⟨18, _⟩ => ⟨S160000, .i32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S160000x128, .f32⟩
  | .hbm, ⟨28, _⟩ => ⟨S_, .i32⟩
  | .hbm, ⟨29, _⟩ => ⟨S160000, .i32⟩
  | .hbm, ⟨30, _⟩ => ⟨S160000, .i1⟩
  | .hbm, ⟨31, _⟩ => ⟨S_, .i32⟩
  | .hbm, ⟨32, _⟩ => ⟨S160000, .i32⟩
  | .hbm, ⟨33, _⟩ => ⟨S160000, .i32⟩
  | .hbm, ⟨34, _⟩ => ⟨S160000, .i32⟩
  | .hbm, ⟨35, _⟩ => ⟨S160000x1, .i32⟩
  | .hbm, ⟨36, _⟩ => ⟨S160000x128, .f32⟩
  | .hbm, ⟨37, _⟩ => ⟨S160000x512, .f32⟩
  | .hbm, ⟨38, _⟩ => ⟨S160000x512, .f32⟩
  | .hbm, ⟨39, _⟩ => ⟨S1x512, .f32⟩
  | .hbm, ⟨40, _⟩ => ⟨S160000x512, .f32⟩
  | .hbm, ⟨41, _⟩ => ⟨S160000x512, .f32⟩
  | .hbm, ⟨42, _⟩ => ⟨S_, .f32⟩
  | .hbm, ⟨43, _⟩ => ⟨S160000x512, .f32⟩
  | .hbm, ⟨44, _⟩ => ⟨S160000x512, .f32⟩
  | .hbm, ⟨45, _⟩ => ⟨S160000x1152, .f32⟩
  | .hbm, ⟨46, _⟩ => ⟨S1x1152, .f32⟩
  | .hbm, ⟨47, _⟩ => ⟨S160000x1152, .f32⟩
  | .hbm, ⟨48, _⟩ => ⟨S160000x1152, .f32⟩
  | .hbm, ⟨49, _⟩ => ⟨S_, .f32⟩
  | .hbm, ⟨50, _⟩ => ⟨S160000x1152, .f32⟩
  | .hbm, ⟨51, _⟩ => ⟨S160000x1152, .f32⟩
  | .hbm, ⟨52, _⟩ => ⟨S160000x512, .f32⟩
  | .hbm, ⟨53, _⟩ => ⟨S160000x128, .f32⟩
  | .hbm, ⟨54, _⟩ => ⟨S160000x512, .f32⟩
  | .hbm, ⟨55, _⟩ => ⟨S_, .f32⟩
  | .hbm, ⟨56, _⟩ => ⟨S10000x512, .f32⟩
  | .hbm, ⟨57, _⟩ => ⟨S_, .i32⟩
  | .hbm, ⟨58, _⟩ => ⟨S160000, .i32⟩
  | .hbm, ⟨59, _⟩ => ⟨S160000, .i1⟩
  | .hbm, ⟨60, _⟩ => ⟨S_, .i32⟩
  | .hbm, ⟨61, _⟩ => ⟨S160000, .i32⟩
  | .hbm, ⟨62, _⟩ => ⟨S160000, .i32⟩
  | .hbm, ⟨63, _⟩ => ⟨S160000, .i32⟩
  | .hbm, ⟨64, _⟩ => ⟨S160000x1, .i32⟩
  | .hbm, ⟨65, _⟩ => ⟨S10000x512, .f32⟩
  | .hbm, ⟨66, _⟩ => ⟨S_, .i32⟩
  | .hbm, ⟨67, _⟩ => ⟨S160000, .i32⟩
  | .hbm, ⟨68, _⟩ => ⟨S160000, .i1⟩
  | .hbm, ⟨69, _⟩ => ⟨S_, .i32⟩
  | .hbm, ⟨70, _⟩ => ⟨S160000, .i32⟩
  | .hbm, ⟨71, _⟩ => ⟨S160000, .i32⟩
  | .hbm, ⟨72, _⟩ => ⟨S160000, .i32⟩
  | .hbm, ⟨73, _⟩ => ⟨S160000x1, .i32⟩
  | .hbm, ⟨74, _⟩ => ⟨S10000x512, .f32⟩
  | .hbm, ⟨75, _⟩ => ⟨S_, .f32⟩
  | .hbm, ⟨76, _⟩ => ⟨S160000, .f32⟩
  | .hbm, ⟨77, _⟩ => ⟨S_, .f32⟩
  | .hbm, ⟨78, _⟩ => ⟨S10000, .f32⟩
  | .hbm, ⟨79, _⟩ => ⟨S_, .i32⟩
  | .hbm, ⟨80, _⟩ => ⟨S160000, .i32⟩
  | .hbm, ⟨81, _⟩ => ⟨S160000, .i1⟩
  | .hbm, ⟨82, _⟩ => ⟨S_, .i32⟩
  | .hbm, ⟨83, _⟩ => ⟨S160000, .i32⟩
  | .hbm, ⟨84, _⟩ => ⟨S160000, .i32⟩
  | .hbm, ⟨85, _⟩ => ⟨S160000, .i32⟩
  | .hbm, ⟨86, _⟩ => ⟨S160000x1, .i32⟩
  | .hbm, ⟨87, _⟩ => ⟨S10000, .f32⟩
  | .hbm, ⟨88, _⟩ => ⟨S_, .i32⟩
  | .hbm, ⟨89, _⟩ => ⟨S160000, .i32⟩
  | .hbm, ⟨90, _⟩ => ⟨S160000, .i1⟩
  | .hbm, ⟨91, _⟩ => ⟨S_, .i32⟩
  | .hbm, ⟨92, _⟩ => ⟨S160000, .i32⟩
  | .hbm, ⟨93, _⟩ => ⟨S160000, .i32⟩
  | .hbm, ⟨94, _⟩ => ⟨S160000, .i32⟩
  | .hbm, ⟨95, _⟩ => ⟨S160000x1, .i32⟩
  | .hbm, ⟨96, _⟩ => ⟨S10000, .f32⟩
  | .hbm, ⟨97, _⟩ => ⟨S_, .f32⟩
  | .hbm, ⟨98, _⟩ => ⟨S10000, .f32⟩
  | .hbm, ⟨99, _⟩ => ⟨S10000, .f32⟩
  | .hbm, ⟨100, _⟩ => ⟨S10000x1, .f32⟩
  | .hbm, ⟨101, _⟩ => ⟨S10000x512, .f32⟩
  | .hbm, ⟨102, _⟩ => ⟨S10000x512, .f32⟩
  | .hbm, ⟨103, _⟩ => ⟨S10000x512, .f32⟩
  | .hbm, ⟨104, _⟩ => ⟨S1x512, .f32⟩
  | .hbm, ⟨105, _⟩ => ⟨S10000x512, .f32⟩
  | .hbm, ⟨106, _⟩ => ⟨S10000x512, .f32⟩
  | .hbm, ⟨107, _⟩ => ⟨S_, .f32⟩
  | .hbm, ⟨108, _⟩ => ⟨S10000x512, .f32⟩
  | .hbm, ⟨109, _⟩ => ⟨S10000x512, .f32⟩
  | .hbm, ⟨110, _⟩ => ⟨S10000x128, .f32⟩
  | .hbm, ⟨111, _⟩ => ⟨S1x128, .f32⟩
  | .hbm, ⟨112, _⟩ => ⟨S10000x128, .f32⟩
  | .hbm, ⟨113, _⟩ => ⟨S10000x128, .f32⟩
  | .hbm, ⟨114, _⟩ => ⟨S_, .f32⟩
  | .hbm, ⟨115, _⟩ => ⟨S10000x128, .f32⟩
  | .hbm, ⟨116, _⟩ => ⟨S10000x128, .f32⟩
  | .hbm, ⟨117, _⟩ => ⟨S10000x128, .f32⟩
  | .hbm, ⟨118, _⟩ => ⟨S10000x128, .f32⟩
  | .hbm, ⟨119, _⟩ => ⟨S1x128, .f32⟩
  | .hbm, ⟨120, _⟩ => ⟨S10000x128, .f32⟩
  | .hbm, ⟨121, _⟩ => ⟨S10000x128, .f32⟩
  | .hbm, ⟨122, _⟩ => ⟨S160000x128, .f32⟩
  | .hbm, ⟨123, _⟩ => ⟨S160000x128, .f32⟩
  | .hbm, ⟨124, _⟩ => ⟨S1x128, .f32⟩
  | .hbm, ⟨125, _⟩ => ⟨S160000x128, .f32⟩
  | .hbm, ⟨126, _⟩ => ⟨S160000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_cst : Ref sig .tc := ⟨.hbm, 49, rfl⟩
abbrev main_call1_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst : Ref sig .tc := ⟨.hbm, 55, rfl⟩
abbrev main_v32 : Ref sig .tc := ⟨.hbm, 56, rfl⟩
abbrev main_c_3 : Ref sig .tc := ⟨.hbm, 57, rfl⟩
abbrev main_v33 : Ref sig .tc := ⟨.hbm, 58, rfl⟩
abbrev main_v34 : Ref sig .tc := ⟨.hbm, 59, rfl⟩
abbrev main_c_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_c_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call2_cst : Ref sig .tc := ⟨.hbm, 107, rfl⟩
abbrev main_call2_v0 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_call3_cst : Ref sig .tc := ⟨.hbm, 114, rfl⟩
abbrev main_call3_v0 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩

abbrev nD : Nat := 1
abbrev τ : Topo := Topo.v7x

variable {F : FTy → Type} [FloatOps F]

class Facts₀ : Prop where
  slices_S160000x2_S160000x1_0_0 : S160000x2.Slices ![0, 0] S160000x1
  shapeCasts_S160000x1_S160000 : S160000x1.ShapeCasts S160000
  slices_S160000x2_S160000x1_0_1 : S160000x2.Slices ![0, 1] S160000x1
  bcast_S_S160000 : S_.BroadcastsInDim S160000 (![] : Fin 0 → Fin S160000.rank)
  bcast_S160000_S160000x1_0 : S160000.BroadcastsInDim S160000x1 (![0] : Fin 1 → Fin S160000x1.rank)
  concatenates_S160000x128_S160000x256_S160000x128_S160000x512_d1 : Shape.Concatenates [S160000x128, S160000x256, S160000x128] S160000x512 1
  bcast_S512_S1x512_1 : S512.BroadcastsInDim S1x512 (![1] : Fin 1 → Fin S1x512.rank)
  bcast_S1x512_S160000x512_0_1 : S1x512.BroadcastsInDim S160000x512 (![0, 1] : Fin 2 → Fin S160000x512.rank)
  bcast_S_S160000x512 : S_.BroadcastsInDim S160000x512 (![] : Fin 0 → Fin S160000x512.rank)
  bcast_S1152_S1x1152_1 : S1152.BroadcastsInDim S1x1152 (![1] : Fin 1 → Fin S1x1152.rank)
  bcast_S1x1152_S160000x1152_0_1 : S1x1152.BroadcastsInDim S160000x1152 (![0, 1] : Fin 2 → Fin S160000x1152.rank)
  bcast_S_S160000x1152 : S_.BroadcastsInDim S160000x1152 (![] : Fin 0 → Fin S160000x1152.rank)
  slices_S160000x1152_S160000x512_0_0 : S160000x1152.Slices ![0, 0] S160000x512
  slices_S160000x1152_S160000x128_0_512 : S160000x1152.Slices ![0, 512] S160000x128
  slices_S160000x1152_S160000x512_0_640 : S160000x1152.Slices ![0, 640] S160000x512
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S1x512_S10000x512_0_1 : S1x512.BroadcastsInDim S10000x512 (![0, 1] : Fin 2 → Fin S10000x512.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1x128_S160000x128_0_1 : S1x128.BroadcastsInDim S160000x128 (![0, 1] : Fin 2 → Fin S160000x128.rank)
  gather_S10000x128_S160000x1_S160000x128_1_0_n_n_0_1_1128_wf : GatherDims.WF S10000x128 S160000x1 S160000x128 [1] [0] [] [0] [] 1 ![1, 128]
  dot_S160000x512_S512x512_S160000x512_1_0_0_1_n_n_wf : DotDims.WF S160000x512 S512x512 S160000x512 [1] [0] [0] [1] [] []
  dot_S160000x512_S512x1152_S160000x1152_1_0_0_1_n_n_wf : DotDims.WF S160000x512 S512x1152 S160000x1152 [1] [0] [0] [1] [] []
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x512_S10000x512_1_0_0_1_n_n_wf : DotDims.WF S10000x512 S512x512 S10000x512 [1] [0] [0] [1] [] []
  dot_S10000x512_S512x128_S10000x128_1_0_0_1_n_n_wf : DotDims.WF S10000x512 S512x128 S10000x128 [1] [0] [0] [1] [] []
  dot_S10000x128_S128x128_S10000x128_1_0_0_1_n_n_wf : DotDims.WF S10000x128 S128x128 S10000x128 [1] [0] [0] [1] [] []
  dot_S160000x256_S256x128_S160000x128_1_0_0_1_n_n_wf : DotDims.WF S160000x256 S256x128 S160000x128 [1] [0] [0] [1] [] []

variable [Facts₀]

def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def dot_S160000x512_S512x512_S160000x512_1_0_0_1_n_n : DotDims S160000x512 S512x512 S160000x512 where
  lhsContracting := [1]
  rhsContracting := [0]
  lhsNonContracting := [0]
  rhsNonContracting := [1]
  lhsBatch := []
  rhsBatch := []
  wf := dot_S160000x512_S512x512_S160000x512_1_0_0_1_n_n_wf
def dot_S160000x512_S512x1152_S160000x1152_1_0_0_1_n_n : DotDims S160000x512 S512x1152 S160000x1152 where
  lhsContracting := [1]
  rhsContracting := [0]
  lhsNonContracting := [0]
  rhsNonContracting := [1]
  lhsBatch := []
  rhsBatch := []
  wf := dot_S160000x512_S512x1152_S160000x1152_1_0_0_1_n_n_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S160000x256_S256x128_S160000x128_1_0_0_1_n_n : DotDims S160000x256 S256x128 S160000x128 where
  lhsContracting := [1]
  rhsContracting := [0]
  lhsNonContracting := [0]
  rhsNonContracting := [1]
  lhsBatch := []
  rhsBatch := []
  wf := dot_S160000x256_S256x128_S160000x128_1_0_0_1_n_n_wf

class Facts : Prop extends Facts₀ where

variable [Facts]
-- ==== Proof.InRange.lean ====
/-
  Indices in range: what the precondition says of the edge table, and what it makes of the kernel's guarded gather.

  The precondition's last conjunct says every word of the edge table, read signed, lies in [-10000, 10000): the range
  in which an index into an axis of extent 10000 is defined, a negative one counting from the end. Both programs wrap
  a negative index by adding 10000. A wrapped in-range index lies in [0, 9999], so the guard the kernel's gather puts
  on it (0 ≤ i and i ≤ 9999, on every lane of the index column) holds everywhere and its fill value is never selected.
-/
import proofs.«414288_j72103910965765_1_alg».proof.Defs
import proofs.«414288_j72103910965765_1_alg».proof.Proof.Gen.KernelIdeal
import proofs.«414288_j72103910965765_1_alg».proof.Proof.Gen.Pre_finite_inputs
import Idealize.ShloMosaic.Lib.Pipeline.Value
import Idealize.ShloMosaic.Lib.ValueIdx
import Idealize.ShloMosaic.Lib.ReduceAll
import Idealize.ShloMosaic.Lib.Affine
import Idealize.ShloMosaic.Lib.StableHlo.Predicate

noncomputable section

namespace Cert.KernelIdeal.InRange

open Cert.KernelIdeal Cert.KernelIdeal.Gen Idealize.ShloMosaic Idealize.ShloMosaic.ValueIdx Idealize.SL.Sem

/-- A word is an admissible index into an axis of extent 10000. -/
def Ok (w : BitVec 32) : Prop := -10000 ≤ w.toInt ∧ w.toInt < 10000

/-- Column `k` (0: subjects, 1: objects) of the edge table as a vector, as both programs slice and reshape it. -/
abbrev colS (x2 : IVec S160000x2 32) : IVec S160000 32 :=
  shapeCast S160000 (extractStridedSlice S160000x1 ![0, 0] x2 slices_S160000x2_S160000x1_0_0) shapeCasts_S160000x1_S160000
abbrev colO (x2 : IVec S160000x2 32) : IVec S160000 32 :=
  shapeCast S160000 (extractStridedSlice S160000x1 ![0, 1] x2 slices_S160000x2_S160000x1_0_1) shapeCasts_S160000x1_S160000

/-- The index column after wrapping negative indices: `where(e < 0, e + 10000, e)` laid out as [160000, 1]. -/
abbrev wrapCol (e : IVec S160000 32) : IVec S160000x1 32 :=
  broadcastInDim S160000x1 ![0] bcast_S160000_S160000x1_0
    (select (cmpi .slt e (broadcastInDim S160000 ![] bcast_S_S160000 (constantI S_ 32 0#32)))
      (addi e (broadcastInDim S160000 ![] bcast_S_S160000 (constantI S_ 32 10000#32))) e)

/-- The guard of the kernel's gather on an index column: every lane in [0, 9999]. -/
abbrev guard (ix : IVec S160000x1 32) : IVec S160000 1 :=
  Host.reduce IntOp.andi
    (andi (cmpi .sge ix (broadcastInDim S160000x1 ![] bcast_S_S160000x1 (constantI S_ 32 0#32)))
      (cmpi .sle ix (broadcastInDim S160000x1 ![0, 1] bcast_S1x1_S160000x1_0_1
        (broadcastInDim S1x1 ![1] bcast_S1_S1x1_1 (constantI S1 32 9999#32)))))
    (constantI S_ 1 1#1) reducesTo_S160000x1_S160000_d1 h_S_

/-! ### Words -/

private theorem toInt_neg10000 : (4294957296#32 : BitVec 32).toInt = -10000 := by decide
private theorem toInt_10000 : (10000#32 : BitVec 32).toInt = 10000 := by decide
private theorem toInt_9999 : (9999#32 : BitVec 32).toInt = 9999 := by decide
private theorem toInt_zero : (0#32 : BitVec 32).toInt = 0 := by decide

/-- Wrapping an admissible index: a negative one moves up by the extent, and either way the result is in [0, 9999]. -/
private theorem wrap_ok (w : BitVec 32) (hw : Ok w) :
    0 ≤ (Scalar.select (IntOp.cmpi .slt w 0#32) (IntOp.addi w 10000#32) w).toInt
      ∧ (Scalar.select (IntOp.cmpi .slt w 0#32) (IntOp.addi w 10000#32) w).toInt ≤ 9999 := by
  obtain ⟨h1, h2⟩ := hw
  by_cases hneg : w.toInt < 0
  · have hc : IntOp.cmpi .slt w 0#32 = 1#1 := IntOp.cmpi_slt.2 (by rw [toInt_zero]; exact hneg)
    have ht : (IntOp.addi w 10000#32).toInt = w.toInt + 10000 := by
      show (w + 10000#32).toInt = w.toInt + 10000
      rw [BitVec.toInt_add, toInt_10000]
      exact Int.bmod_eq_of_le (by omega) (by omega)
    rw [hc, select_one, ht]
    omega
  · have hc : IntOp.cmpi .slt w 0#32 = 0#1 :=
      eq_zero_of_ne_one fun h => hneg (by have := IntOp.cmpi_slt.1 h; rwa [toInt_zero] at this)
    rw [hc, select_zero]
    omega

/-- A left fold by `and` from 1 over words that are all 1 is 1. -/
private theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a List.mem_cons_self⟩) fun n hn => hl n (List.mem_cons_of_mem _ hn)

private instance : Subsingleton S_.Idx := ⟨fun a b => funext fun d => d.elim0⟩

/-- The precondition bounds every word of the edge table. -/
theorem edges_ok (m : (ℓ : Loc nD τ sig) → Buf (Elt Ideal) ℓ) (hpre : Cert.Pre_KernelIdeal m) (c : Dev nD)
    (i : S160000x2.Idx) : Ok ((m ((c.tc : Thread nD τ).loc main_arg2) : IVec S160000x2 32) i) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  -- the last conjunct: the reduction by `and` of the two comparisons over the whole table
  have h2 := (IntOp.andi_eq_one.1 h).2
  have h3 := Host.reduce_andi_all _ _ _ _ _ h2 i
  obtain ⟨ha, hb⟩ := IntOp.andi_eq_one.1 h3
  have ha' : (4294957296#32 : BitVec 32).toInt ≤ ((m ((c.tc : Thread nD τ).loc main_arg2) : IVec S160000x2 32) i).toInt :=
    IntOp.cmpi_sge.1 ha
  have hb' : ((m ((c.tc : Thread nD τ).loc main_arg2) : IVec S160000x2 32) i).toInt < (10000#32 : BitVec 32).toInt :=
    IntOp.cmpi_slt.1 hb
  rw [toInt_neg10000] at ha'
  rw [toInt_10000] at hb'
  exact ⟨ha', hb'⟩

/-- Hence every entry of either column is an admissible index. -/
theorem colS_ok (x2 : IVec S160000x2 32) (h : ∀ i, Ok (x2 i)) (p : S160000.Idx) : Ok (colS x2 p) := by
  unfold colS shapeCast extractStridedSlice
  exact h _
theorem colO_ok (x2 : IVec S160000x2 32) (h : ∀ i, Ok (x2 i)) (p : S160000.Idx) : Ok (colO x2 p) := by
  unfold colO shapeCast extractStridedSlice
  exact h _

/-- The guard is set on every row of a column whose every lane is in [0, 9999]. -/
private theorem guard_of_bounds (ix : IVec S160000x1 32) (h : ∀ i, 0 ≤ (ix i).toInt ∧ (ix i).toInt ≤ 9999)
    (p : S160000.Idx) : guard ix p = 1#1 := by
  unfold guard
  rw [Host.reduce_eq_foldl]
  refine foldl_andi_one _ _ _ rfl fun i _ => ?_
  show IntOp.andi (IntOp.cmpi .sge (ix i) 0#32) (IntOp.cmpi .sle (ix i) 9999#32) = 1#1
  rw [IntOp.andi_eq_one, IntOp.cmpi_sge, IntOp.cmpi_sle, toInt_zero, toInt_9999]
  exact h i

/-- On admissible indices the guard is set on every row. -/
theorem guard_wrapCol (e : IVec S160000 32) (he : ∀ p, Ok (e p)) (p : S160000.Idx) : guard (wrapCol e) p = 1#1 := by
  refine guard_of_bounds (wrapCol e) (fun i => ?_) p
  unfold wrapCol broadcastInDim
  exact wrap_ok _ (he _)

/-- So the guarded gather is the gather: the fill is selected nowhere. -/
theorem select_guard {F : FTy → Type} [FloatOps F] (e : IVec S160000 32) (he : ∀ p, Ok (e p))
    (g fill : FVec F S160000x128 .f32) :
    select (broadcastInDim S160000x128 ![0] bcast_S160000_S160000x128_0 (guard (wrapCol e))) g fill = g := by
  funext i
  have hm : broadcastInDim S160000x128 ![0] bcast_S160000_S160000x128_0 (guard (wrapCol e)) i = 1#1 := by
    unfold broadcastInDim
    exact guard_wrapCol e he _
  rw [select_apply, hm, select_one]

end Cert.KernelIdeal.InRange

end
-- ==== Proof.Fold.lean ====
/-
  What each kernel finds in its operand arrays, and where the results sit, as terms of the program's arguments.

  Before the first kernel the program slices the two index columns out of the edge table, gathers the node table's
  rows at the wrapped subject and object indices (each gather guarded: rows whose wrapped index falls outside
  [0, 9999] are filled with a fixed word), changes the format of three weight matrices and lays three bias vectors out
  as one-row matrices. Between the kernels it pools the first kernel's subject and object messages per node and
  divides by the incidence counts; the weights and biases of the second network are prepared as before. Nothing after
  the first kernel writes its predicate output, and the second kernel's output is the last thing written.
-/
import proofs.«414288_j72103910965765_1_alg».proof.Proof.Gen.KernelIdeal.Frame
import proofs.«414288_j72103910965765_1_alg».proof.Proof.InRange
import Idealize.ShloMosaic.Lib.StableHlo.Run

set_option maxRecDepth 16384

noncomputable section

namespace Cert.KernelIdeal.Fold

open Cert.KernelIdeal Cert.KernelIdeal.Gen Cert.KernelIdeal.InRange
open Idealize.ShloMosaic Idealize.ShloMosaic.TcCoe Idealize.ShloMosaic.Tactic Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## What the first kernel finds in its operand arrays -/

set_option maxRecDepth 400000 in
/-- The subject rows: the guarded gather of the node table at the wrapped subject indices. -/
theorem entry0_subj (c : Dev nD) : W4 m ρ c (Proc.devRef .tc main_v4) = select (broadcastInDim S160000x128 ![0] bcast_S160000_S160000x128_0 (guard (wrapCol (colS (m ((c : Thread nD τ).loc main_arg2))))))
        (Host.gather gather_S10000x128_S160000x1_S160000x128_1_0_n_n_0_1_1128 (m ((c : Thread nD τ).loc main_arg0)) (wrapCol (colS (m ((c : Thread nD τ).loc main_arg2)))))
        (broadcastInDim S160000x128 ![] bcast_S_S160000x128 (constant S_ .f32 0x7FC00000#32)) := by
  show StableHlo.after hostOps0_3 (StableHlo.after hostOps0_2 (StableHlo.after hostOps0_1 (StableHlo.after hostOps0 (W0 m ρ c)))) (Proc.devRef .tc main_v4) = _
  after_results_simp <;> rfl

set_option maxRecDepth 400000 in
/-- The object rows: the same at the wrapped object indices. -/
theorem entry0_obj (c : Dev nD) : W4 m ρ c (Proc.devRef .tc main_v5) = select (broadcastInDim S160000x128 ![0] bcast_S160000_S160000x128_0 (guard (wrapCol (colO (m ((c : Thread nD τ).loc main_arg2))))))
        (Host.gather gather_S10000x128_S160000x1_S160000x128_1_0_n_n_0_1_1128 (m ((c : Thread nD τ).loc main_arg0)) (wrapCol (colO (m ((c : Thread nD τ).loc main_arg2)))))
        (broadcastInDim S160000x128 ![] bcast_S_S160000x128 (constant S_ .f32 0x7FC00000#32)) := by
  show StableHlo.after hostOps0_3 (StableHlo.after hostOps0_2 (StableHlo.after hostOps0_1 (StableHlo.after hostOps0 (W0 m ρ c)))) (Proc.devRef .tc main_v5) = _
  after_results_simp <;> rfl

/-- The predicate vectors are the argument itself. -/
theorem entry0_pred (c : Dev nD) : W4 m ρ c (Proc.devRef .tc main_arg1) = (m ((c : Thread nD τ).loc main_arg1)) := by
  show StableHlo.after hostOps0_3 (StableHlo.after hostOps0_2 (StableHlo.after hostOps0_1 (StableHlo.after hostOps0 (W0 m ρ c)))) (Proc.devRef .tc main_arg1) = _
  after_results_simp <;> rfl

/-- The weight matrices change format only; the bias vectors are laid out as one row. -/
theorem entry0_w1 (c : Dev nD) : W4 m ρ c (Proc.devRef .tc main_v6) = truncf .bf16 (m ((c : Thread nD τ).loc main_arg3)) bitsLt_bf16_f32 := by
  show StableHlo.after hostOps0_3 (StableHlo.after hostOps0_2 (StableHlo.after hostOps0_1 (StableHlo.after hostOps0 (W0 m ρ c)))) (Proc.devRef .tc main_v6) = _
  after_results_simp <;> rfl

theorem entry0_w2 (c : Dev nD) : W4 m ρ c (Proc.devRef .tc main_v7) = truncf .bf16 (m ((c : Thread nD τ).loc main_arg5)) bitsLt_bf16_f32 := by
  show StableHlo.after hostOps0_3 (StableHlo.after hostOps0_2 (StableHlo.after hostOps0_1 (StableHlo.after hostOps0 (W0 m ρ c)))) (Proc.devRef .tc main_v7) = _
  after_results_simp <;> rfl

theorem entry0_ppw (c : Dev nD) : W4 m ρ c (Proc.devRef .tc main_v8) = truncf .bf16 (m ((c : Thread nD τ).loc main_arg13)) bitsLt_bf16_f32 := by
  show StableHlo.after hostOps0_3 (StableHlo.after hostOps0_2 (StableHlo.after hostOps0_1 (StableHlo.after hostOps0 (W0 m ρ c)))) (Proc.devRef .tc main_v8) = _
  after_results_simp <;> rfl

theorem entry0_b1 (c : Dev nD) : W4 m ρ c (Proc.devRef .tc main_v9) = shapeCast S1x512 (m ((c : Thread nD τ).loc main_arg4)) shapeCasts_S512_S1x512 := by
  show StableHlo.after hostOps0_3 (StableHlo.after hostOps0_2 (StableHlo.after hostOps0_1 (StableHlo.after hostOps0 (W0 m ρ c)))) (Proc.devRef .tc main_v9) = _
  after_results_simp <;> rfl

theorem entry0_b2 (c : Dev nD) : W4 m ρ c (Proc.devRef .tc main_v10) = shapeCast S1x1152 (m ((c : Thread nD τ).loc main_arg6)) shapeCasts_S1152_S1x1152 := by
  show StableHlo.after hostOps0_3 (StableHlo.after hostOps0_2 (StableHlo.after hostOps0_1 (StableHlo.after hostOps0 (W0 m ρ c)))) (Proc.devRef .tc main_v10) = _
  after_results_simp <;> rfl

theorem entry0_ppb (c : Dev nD) : W4 m ρ c (Proc.devRef .tc main_v11) = shapeCast S1x128 (m ((c : Thread nD τ).loc main_arg14)) shapeCasts_S128_S1x128 := by
  show StableHlo.after hostOps0_3 (StableHlo.after hostOps0_2 (StableHlo.after hostOps0_1 (StableHlo.after hostOps0 (W0 m ρ c)))) (Proc.devRef .tc main_v11) = _
  after_results_simp <;> rfl

/-- The two index columns, as sliced out of the edge table before the first kernel. -/
theorem entry0_s (c : Dev nD) : W4 m ρ c (Proc.devRef .tc main_v1) = colS (m ((c : Thread nD τ).loc main_arg2)) := by
  show StableHlo.after hostOps0_3 (StableHlo.after hostOps0_2 (StableHlo.after hostOps0_1 (StableHlo.after hostOps0 (W0 m ρ c)))) (Proc.devRef .tc main_v1) = _
  after_results_simp <;> rfl

theorem entry0_o (c : Dev nD) : W4 m ρ c (Proc.devRef .tc main_v3) = colO (m ((c : Thread nD τ).loc main_arg2)) := by
  show StableHlo.after hostOps0_3 (StableHlo.after hostOps0_2 (StableHlo.after hostOps0_1 (StableHlo.after hostOps0 (W0 m ρ c)))) (Proc.devRef .tc main_v3) = _
  after_results_simp <;> rfl

/-! ## The pooling between the two kernels, as one function of the two message arrays and the two index vectors:
    scatter-add the subject messages at the wrapped subject indices and the object messages at the wrapped object
    indices into zeros, and divide each node's row by its incidence count, at least one. -/

def pooled (ns no : FVec F S160000x512 .f32) (s o : IVec S160000 32) : FVec F S10000x512 .f32 :=
  Host.divf
    (Host.scatterAdd scatter_S10000x512_S160000x1_S160000x512_1_0_0_1
      (Host.scatterAdd scatter_S10000x512_S160000x1_S160000x512_1_0_0_1
        (broadcastInDim S10000x512 ![] bcast_S_S10000x512 (constant S_ .f32 0x00000000#32)) (wrapCol s) ns)
      (wrapCol o) no)
    (broadcastInDim S10000x512 ![0, 1] bcast_S10000x1_S10000x512_0_1
      (broadcastInDim S10000x1 ![0] bcast_S10000_S10000x1_0
        (maximumf
          (Host.scatterAdd scatter_S10000_S160000x1_S160000_n_0_0_1
            (Host.scatterAdd scatter_S10000_S160000x1_S160000_n_0_0_1
              (broadcastInDim S10000 ![] bcast_S_S10000 (constant S_ .f32 0x00000000#32)) (wrapCol s)
              (broadcastInDim S160000 ![] bcast_S_S160000 (constant S_ .f32 0x3F800000#32)))
            (wrapCol o) (broadcastInDim S160000 ![] bcast_S_S160000 (constant S_ .f32 0x3F800000#32)))
          (broadcastInDim S10000 ![] bcast_S_S10000 (constant S_ .f32 0x3F800000#32)))))

/-! ## What the second kernel finds in its operand arrays -/

/-- The pooled rows, over what the first kernel left in its subject and object outputs. -/
theorem entry1_pooled (c : Dev nD) : W6 m ρ c (Proc.devRef .tc main_v48)
    = pooled (W5 m ρ c (Proc.devRef .tc main_v12_0)) (W5 m ρ c (Proc.devRef .tc main_v12_2))
        (W5 m ρ c (Proc.devRef .tc main_v1)) (W5 m ρ c (Proc.devRef .tc main_v3)) := by
  show StableHlo.after hostOps1 (W5 m ρ c) (Proc.devRef .tc main_v48) = _
  after_results_simp <;> rfl

theorem entry0_arg0 (c : Dev nD) : W4 m ρ c (Proc.devRef .tc main_arg0) = (m ((c : Thread nD τ).loc main_arg0)) := by
  show StableHlo.after hostOps0_3 (StableHlo.after hostOps0_2 (StableHlo.after hostOps0_1 (StableHlo.after hostOps0 (W0 m ρ c)))) (Proc.devRef .tc main_arg0) = _
  after_results_simp
theorem entry0_arg7 (c : Dev nD) : W4 m ρ c (Proc.devRef .tc main_arg7) = (m ((c : Thread nD τ).loc main_arg7)) := by
  show StableHlo.after hostOps0_3 (StableHlo.after hostOps0_2 (StableHlo.after hostOps0_1 (StableHlo.after hostOps0 (W0 m ρ c)))) (Proc.devRef .tc main_arg7) = _
  after_results_simp
theorem entry0_arg8 (c : Dev nD) : W4 m ρ c (Proc.devRef .tc main_arg8) = (m ((c : Thread nD τ).loc main_arg8)) := by
  show StableHlo.after hostOps0_3 (StableHlo.after hostOps0_2 (StableHlo.after hostOps0_1 (StableHlo.after hostOps0 (W0 m ρ c)))) (Proc.devRef .tc main_arg8) = _
  after_results_simp
theorem entry0_arg9 (c : Dev nD) : W4 m ρ c (Proc.devRef .tc main_arg9) = (m ((c : Thread nD τ).loc main_arg9)) := by
  show StableHlo.after hostOps0_3 (StableHlo.after hostOps0_2 (StableHlo.after hostOps0_1 (StableHlo.after hostOps0 (W0 m ρ c)))) (Proc.devRef .tc main_arg9) = _
  after_results_simp
theorem entry0_arg10 (c : Dev nD) : W4 m ρ c (Proc.devRef .tc main_arg10) = (m ((c : Thread nD τ).loc main_arg10)) := by
  show StableHlo.after hostOps0_3 (StableHlo.after hostOps0_2 (StableHlo.after hostOps0_1 (StableHlo.after hostOps0 (W0 m ρ c)))) (Proc.devRef .tc main_arg10) = _
  after_results_simp
theorem entry0_arg11 (c : Dev nD) : W4 m ρ c (Proc.devRef .tc main_arg11) = (m ((c : Thread nD τ).loc main_arg11)) := by
  show StableHlo.after hostOps0_3 (StableHlo.after hostOps0_2 (StableHlo.after hostOps0_1 (StableHlo.after hostOps0 (W0 m ρ c)))) (Proc.devRef .tc main_arg11) = _
  after_results_simp
theorem entry0_arg12 (c : Dev nD) : W4 m ρ c (Proc.devRef .tc main_arg12) = (m ((c : Thread nD τ).loc main_arg12)) := by
  show StableHlo.after hostOps0_3 (StableHlo.after hostOps0_2 (StableHlo.after hostOps0_1 (StableHlo.after hostOps0 (W0 m ρ c)))) (Proc.devRef .tc main_arg12) = _
  after_results_simp

/-! ## Between the two kernels: the first kernel's outputs sit in its arrays, every other buffer is as it was -/

theorem mid_subjMsgs (c : Dev nD) : W5 m ρ c (Proc.devRef .tc main_v12_0) = (dat0 (V4 m ρ) c).arrAt 9 cfg0.N := W5_arr m ρ c 9
theorem mid_predOut (c : Dev nD) : W5 m ρ c (Proc.devRef .tc main_v12_1) = (dat0 (V4 m ρ) c).arrAt 10 cfg0.N := W5_arr m ρ c 10
theorem mid_objMsgs (c : Dev nD) : W5 m ρ c (Proc.devRef .tc main_v12_2) = (dat0 (V4 m ρ) c).arrAt 11 cfg0.N := W5_arr m ρ c 11
theorem mid_s (c : Dev nD) : W5 m ρ c (Proc.devRef .tc main_v1) = colS (m ((c : Thread nD τ).loc main_arg2)) :=
  (W5_of_ne m ρ c main_v1 (by decide)).trans (entry0_s m ρ c)
theorem mid_o (c : Dev nD) : W5 m ρ c (Proc.devRef .tc main_v3) = colO (m ((c : Thread nD τ).loc main_arg2)) :=
  (W5_of_ne m ρ c main_v3 (by decide)).trans (entry0_o m ρ c)
theorem mid_arg0 (c : Dev nD) : W5 m ρ c (Proc.devRef .tc main_arg0) = (m ((c : Thread nD τ).loc main_arg0)) :=
  (W5_of_ne m ρ c main_arg0 (by decide)).trans (entry0_arg0 m ρ c)
theorem mid_arg7 (c : Dev nD) : W5 m ρ c (Proc.devRef .tc main_arg7) = (m ((c : Thread nD τ).loc main_arg7)) :=
  (W5_of_ne m ρ c main_arg7 (by decide)).trans (entry0_arg7 m ρ c)
theorem mid_arg8 (c : Dev nD) : W5 m ρ c (Proc.devRef .tc main_arg8) = (m ((c : Thread nD τ).loc main_arg8)) :=
  (W5_of_ne m ρ c main_arg8 (by decide)).trans (entry0_arg8 m ρ c)
theorem mid_arg9 (c : Dev nD) : W5 m ρ c (Proc.devRef .tc main_arg9) = (m ((c : Thread nD τ).loc main_arg9)) :=
  (W5_of_ne m ρ c main_arg9 (by decide)).trans (entry0_arg9 m ρ c)
theorem mid_arg10 (c : Dev nD) : W5 m ρ c (Proc.devRef .tc main_arg10) = (m ((c : Thread nD τ).loc main_arg10)) :=
  (W5_of_ne m ρ c main_arg10 (by decide)).trans (entry0_arg10 m ρ c)
theorem mid_arg11 (c : Dev nD) : W5 m ρ c (Proc.devRef .tc main_arg11) = (m ((c : Thread nD τ).loc main_arg11)) :=
  (W5_of_ne m ρ c main_arg11 (by decide)).trans (entry0_arg11 m ρ c)
theorem mid_arg12 (c : Dev nD) : W5 m ρ c (Proc.devRef .tc main_arg12) = (m ((c : Thread nD τ).loc main_arg12)) :=
  (W5_of_ne m ρ c main_arg12 (by decide)).trans (entry0_arg12 m ρ c)

/-- The pooled rows over the first kernel's two message arrays and the edge table's two columns. -/
theorem entry1_pooled_of (c : Dev nD) : W6 m ρ c (Proc.devRef .tc main_v48)
    = pooled ((dat0 (V4 m ρ) c).arrAt 9 cfg0.N) ((dat0 (V4 m ρ) c).arrAt 11 cfg0.N)
        (colS (m ((c : Thread nD τ).loc main_arg2))) (colO (m ((c : Thread nD τ).loc main_arg2))) := by
  rw [entry1_pooled, mid_subjMsgs, mid_objMsgs, mid_s, mid_o]

theorem entry1_nodes_raw (c : Dev nD) : W6 m ρ c (Proc.devRef .tc main_arg0) = (W5 m ρ c (Proc.devRef .tc main_arg0)) := by
  show StableHlo.after hostOps1 (W5 m ρ c) (Proc.devRef .tc main_arg0) = _
  after_results_simp <;> rfl
theorem entry1_nodes (c : Dev nD) : W6 m ρ c (Proc.devRef .tc main_arg0) = (m ((c : Thread nD τ).loc main_arg0)) :=
  (entry1_nodes_raw m ρ c).trans (by rw [mid_arg0 m ρ c])

theorem entry1_u1_raw (c : Dev nD) : W6 m ρ c (Proc.devRef .tc main_v49) = truncf .bf16 (W5 m ρ c (Proc.devRef .tc main_arg7)) bitsLt_bf16_f32 := by
  show StableHlo.after hostOps1 (W5 m ρ c) (Proc.devRef .tc main_v49) = _
  after_results_simp <;> rfl
theorem entry1_u1 (c : Dev nD) : W6 m ρ c (Proc.devRef .tc main_v49) = truncf .bf16 (m ((c : Thread nD τ).loc main_arg7)) bitsLt_bf16_f32 :=
  (entry1_u1_raw m ρ c).trans (by rw [mid_arg7 m ρ c])

theorem entry1_u2_raw (c : Dev nD) : W6 m ρ c (Proc.devRef .tc main_v50) = truncf .bf16 (W5 m ρ c (Proc.devRef .tc main_arg9)) bitsLt_bf16_f32 := by
  show StableHlo.after hostOps1 (W5 m ρ c) (Proc.devRef .tc main_v50) = _
  after_results_simp <;> rfl
theorem entry1_u2 (c : Dev nD) : W6 m ρ c (Proc.devRef .tc main_v50) = truncf .bf16 (m ((c : Thread nD τ).loc main_arg9)) bitsLt_bf16_f32 :=
  (entry1_u2_raw m ρ c).trans (by rw [mid_arg9 m ρ c])

theorem entry1_pw_raw (c : Dev nD) : W6 m ρ c (Proc.devRef .tc main_v51) = truncf .bf16 (W5 m ρ c (Proc.devRef .tc main_arg11)) bitsLt_bf16_f32 := by
  show StableHlo.after hostOps1 (W5 m ρ c) (Proc.devRef .tc main_v51) = _
  after_results_simp <;> rfl
theorem entry1_pw (c : Dev nD) : W6 m ρ c (Proc.devRef .tc main_v51) = truncf .bf16 (m ((c : Thread nD τ).loc main_arg11)) bitsLt_bf16_f32 :=
  (entry1_pw_raw m ρ c).trans (by rw [mid_arg11 m ρ c])

theorem entry1_c1_raw (c : Dev nD) : W6 m ρ c (Proc.devRef .tc main_v52) = shapeCast S1x512 (W5 m ρ c (Proc.devRef .tc main_arg8)) shapeCasts_S512_S1x512 := by
  show StableHlo.after hostOps1 (W5 m ρ c) (Proc.devRef .tc main_v52) = _
  after_results_simp <;> rfl
theorem entry1_c1 (c : Dev nD) : W6 m ρ c (Proc.devRef .tc main_v52) = shapeCast S1x512 (m ((c : Thread nD τ).loc main_arg8)) shapeCasts_S512_S1x512 :=
  (entry1_c1_raw m ρ c).trans (by rw [mid_arg8 m ρ c])

theorem entry1_c2_raw (c : Dev nD) : W6 m ρ c (Proc.devRef .tc main_v53) = shapeCast S1x128 (W5 m ρ c (Proc.devRef .tc main_arg10)) shapeCasts_S128_S1x128 := by
  show StableHlo.after hostOps1 (W5 m ρ c) (Proc.devRef .tc main_v53) = _
  after_results_simp <;> rfl
theorem entry1_c2 (c : Dev nD) : W6 m ρ c (Proc.devRef .tc main_v53) = shapeCast S1x128 (m ((c : Thread nD τ).loc main_arg10)) shapeCasts_S128_S1x128 :=
  (entry1_c2_raw m ρ c).trans (by rw [mid_arg10 m ρ c])

theorem entry1_pb_raw (c : Dev nD) : W6 m ρ c (Proc.devRef .tc main_v54) = shapeCast S1x128 (W5 m ρ c (Proc.devRef .tc main_arg12)) shapeCasts_S128_S1x128 := by
  show StableHlo.after hostOps1 (W5 m ρ c) (Proc.devRef .tc main_v54) = _
  after_results_simp <;> rfl
theorem entry1_pb (c : Dev nD) : W6 m ρ c (Proc.devRef .tc main_v54) = shapeCast S1x128 (m ((c : Thread nD τ).loc main_arg12)) shapeCasts_S128_S1x128 :=
  (entry1_pb_raw m ρ c).trans (by rw [mid_arg12 m ρ c])

/-! ## Where the two results sit after the last segment -/

/-- The new node vectors are the second kernel's output array. -/
theorem result_nodes (c : Dev nD) : W7 m ρ c (Proc.devRef .tc main_v55) = (dat1 (V6 m ρ) c).arrAt 8 cfg1.N := W7_arr m ρ c 8

/-- The new predicate vectors are the first kernel's second output array: nothing after that kernel writes it. -/
theorem result_preds (c : Dev nD) : W7 m ρ c (Proc.devRef .tc main_v12_1) = (dat0 (V4 m ρ) c).arrAt 10 cfg0.N := by
  refine (W7_of_ne m ρ c main_v12_1 (by decide)).trans ?_
  refine Eq.trans ?_ (mid_predOut m ρ c)
  show StableHlo.after hostOps1 (W5 m ρ c) (Proc.devRef .tc main_v12_1) = _
  after_results_simp <;> rfl

end Cert.KernelIdeal.Fold

end
-- ==== Proof.Spec.lean ====
/-
  What both programs compute, one row at a time, on the extended reals.

  Every triple's row [subject vector | predicate vector | object vector] (widths 128, 256, 128) passes through two
  affine layers, each followed by the rectifier max(·, 0); a node's pooled row passes through two more. An affine
  layer's entry n on a row x is Σ_k x k · w k n + b n. The results add a residual affine layer of the triple's
  predicate vector (of the node's own vector). The two programs group that last sum differently:
  a + (s + b) in one, (a + s) + b in the other. Addition of extended reals is associative, so the two agree
  with no finiteness assumption.
-/
import Idealize.ShloMosaic.PureOps.Ideal
import Idealize.ShloMosaic.PureOps.Ideal.Laws
import Idealize.ShloMosaic.Lib.ValueIdx

noncomputable section

namespace Cert.Spec

open Idealize.ShloMosaic

/-- The value of the single-precision zero word. -/
abbrev z : EReal := Ideal.ofBits .f32 0x00000000#32

/-- Row `r` of a matrix, as a function of the column. -/
abbrev rowOf {A B : Nat} (x : (⟨2, ![A, B]⟩ : Shape).Idx → EReal) (r : Fin A) : Fin B → EReal :=
  fun c => x (ValueIdx.ix2 r c)

/-- A matrix as a function of its two coordinates. -/
abbrev matOf {A B : Nat} (x : (⟨2, ![A, B]⟩ : Shape).Idx → EReal) : Fin A → Fin B → EReal :=
  fun k n => x (ValueIdx.ix2 k n)

/-- A vector as a function of its coordinate. -/
abbrev vecOf {B : Nat} (x : (⟨1, ![B]⟩ : Shape).Idx → EReal) : Fin B → EReal :=
  fun n => x (ValueIdx.ix1 n)

/-- Entry `n` of the affine layer `x · w + b` on a row `x`. -/
def dense {K N : Nat} (x : Fin K → EReal) (w : Fin K → Fin N → EReal) (b : Fin N → EReal) (n : Fin N) : EReal :=
  (∑ k : Fin K, x k * w k n) + b n

/-- The same followed by the rectifier. -/
def rdense {K N : Nat} (x : Fin K → EReal) (w : Fin K → Fin N → EReal) (b : Fin N → EReal) (n : Fin N) : EReal :=
  max (dense x w b n) z

/-- The row `[a | p | o]` of widths 128, 256, 128. -/
def cat3 (a : Fin 128 → EReal) (p : Fin 256 → EReal) (o : Fin 128 → EReal) (c : Fin 512) : EReal :=
  if h₁ : c.val < 128 then a ⟨c.val, h₁⟩
  else if h₂ : c.val < 384 then p ⟨c.val - 128, by omega⟩
  else o ⟨c.val - 384, by omega⟩

/-- A triple's row through the first network: 512 → 512 → 1152, rectified after each layer. -/
def net1 (a : Fin 128 → EReal) (p : Fin 256 → EReal) (o : Fin 128 → EReal)
    (w1 : Fin 512 → Fin 512 → EReal) (b1 : Fin 512 → EReal) (w2 : Fin 512 → Fin 1152 → EReal) (b2 : Fin 1152 → EReal)
    (n : Fin 1152) : EReal :=
  rdense (fun k => rdense (cat3 a p o) w1 b1 k) w2 b2 n

/-- A node's pooled row through the second network: 512 → 512 → 128, rectified after each layer. -/
def net2 (pl : Fin 512 → EReal) (u1 : Fin 512 → Fin 512 → EReal) (c1 : Fin 512 → EReal)
    (u2 : Fin 512 → Fin 128 → EReal) (c2 : Fin 128 → EReal) (n : Fin 128) : EReal :=
  rdense (fun k => rdense pl u1 c1 k) u2 c2 n

/-- Column `j` of the middle band (columns 512 … 639) of the first network's output. -/
abbrev midCol (j : Fin 128) : Fin 1152 := ⟨512 + j.val, by omega⟩
/-- Column `j` of the last band (columns 640 … 1151). -/
abbrev lastCol (j : Fin 512) : Fin 1152 := ⟨640 + j.val, by omega⟩
/-- Column `j` of the first band (columns 0 … 511). -/
abbrev firstCol (j : Fin 512) : Fin 1152 := ⟨j.val, by omega⟩

/-- The new predicate vector's entry with the residual layer added whole: `t + (Σ + b)`. -/
def predOutWhole (t : EReal) (p : Fin 256 → EReal) (ppw : Fin 256 → Fin 128 → EReal) (ppb : Fin 128 → EReal) (j : Fin 128) : EReal :=
  t + dense p ppw ppb j

/-- The same with the residual's product added first and its bias last: `(t + Σ) + b`. -/
def predOutSplit (t : EReal) (p : Fin 256 → EReal) (ppw : Fin 256 → Fin 128 → EReal) (ppb : Fin 128 → EReal) (j : Fin 128) : EReal :=
  (t + ∑ k : Fin 256, p k * ppw k j) + ppb j

theorem predOutWhole_eq_split (t : EReal) (p : Fin 256 → EReal) (ppw : Fin 256 → Fin 128 → EReal) (ppb : Fin 128 → EReal)
    (j : Fin 128) : predOutWhole t p ppw ppb j = predOutSplit t p ppw ppb j := by
  unfold predOutWhole predOutSplit dense
  exact (add_assoc _ _ _).symm

/-- The new node vector's entry with the residual layer added whole. -/
def objOutWhole (t : EReal) (ob : Fin 128 → EReal) (pw : Fin 128 → Fin 128 → EReal) (pb : Fin 128 → EReal) (j : Fin 128) : EReal :=
  t + dense ob pw pb j

/-- The same with the residual's product added first and its bias last. -/
def objOutSplit (t : EReal) (ob : Fin 128 → EReal) (pw : Fin 128 → Fin 128 → EReal) (pb : Fin 128 → EReal) (j : Fin 128) : EReal :=
  (t + ∑ k : Fin 128, ob k * pw k j) + pb j

theorem objOutWhole_eq_split (t : EReal) (ob : Fin 128 → EReal) (pw : Fin 128 → Fin 128 → EReal) (pb : Fin 128 → EReal)
    (j : Fin 128) : objOutWhole t ob pw pb j = objOutSplit t ob pw pb j := by
  unfold objOutWhole objOutSplit dense
  exact (add_assoc _ _ _).symm

end Cert.Spec

end
-- ==== Proof.Pay0.lean ====
/-
  The first kernel's arithmetic on one block of 1280 triples, read at an entry.

  The block's rows are independent: row r of the result depends on row r of the three row-blocked operands (subject
  rows, predicate rows, object rows) and on the whole weight matrices and bias rows. Each entry is the first
  network's entry on that row; the predicate output adds the residual affine layer of the predicate row.
  A change of float format is the identity on the extended reals, and a matrix product into the zero accumulator
  is the plain sum over the contracted coordinate.
-/
import proofs.«414288_j72103910965765_1_alg».proof.Proof.Gen.KernelIdeal.Skeleton
import proofs.«414288_j72103910965765_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay0

open Cert.KernelIdeal Cert.KernelIdeal.Gen Idealize.ShloMosaic Idealize.ShloMosaic.ValueIdx Cert.Spec

/-! ### The product layer1: operand indices, axis by axis -/

private theorem lhs_layer1_0 (i : S1280x512.Idx) (q : dot_S1280x512_S512x512_S1280x512_1_0_0_1_n_n.contr.Idx) :
    (dot_S1280x512_S512x512_S1280x512_1_0_0_1_n_n.lhsIdx i q 0).val = (i 0).val := by
  unfold DotDims.lhsIdx
  rw [dif_neg (show ¬(0 : Fin S1280x512.rank) ∈ dot_S1280x512_S512x512_S1280x512_1_0_0_1_n_n.lhsBatch by decide), dif_pos (show (0 : Fin S1280x512.rank) ∈ dot_S1280x512_S512x512_S1280x512_1_0_0_1_n_n.lhsNonContracting by decide)]
  rfl
private theorem lhs_layer1_1 (i : S1280x512.Idx) (q : dot_S1280x512_S512x512_S1280x512_1_0_0_1_n_n.contr.Idx) :
    (dot_S1280x512_S512x512_S1280x512_1_0_0_1_n_n.lhsIdx i q 1).val = (q ⟨0, by decide⟩).val :=
  dot_S1280x512_S512x512_S1280x512_1_0_0_1_n_n.lhsIdx_val_of_single rfl i q
private theorem rhs_layer1_0 (i : S1280x512.Idx) (q : dot_S1280x512_S512x512_S1280x512_1_0_0_1_n_n.contr.Idx) :
    (dot_S1280x512_S512x512_S1280x512_1_0_0_1_n_n.rhsIdx i q 0).val = (q ⟨0, by decide⟩).val :=
  dot_S1280x512_S512x512_S1280x512_1_0_0_1_n_n.rhsIdx_val_of_single rfl i q
private theorem rhs_layer1_1 (i : S1280x512.Idx) (q : dot_S1280x512_S512x512_S1280x512_1_0_0_1_n_n.contr.Idx) :
    (dot_S1280x512_S512x512_S1280x512_1_0_0_1_n_n.rhsIdx i q 1).val = (i 1).val := by
  unfold DotDims.rhsIdx
  rw [dif_neg (show ¬(1 : Fin S512x512.rank) ∈ dot_S1280x512_S512x512_S1280x512_1_0_0_1_n_n.rhsBatch by decide), dif_pos (show (1 : Fin S512x512.rank) ∈ dot_S1280x512_S512x512_S1280x512_1_0_0_1_n_n.rhsNonContracting by decide)]
  rfl

/-- A product into the zero accumulator, read at row `r` and column `n`: the sum over the contracted coordinate. -/
private theorem matmul_layer1_apply (x : FVec Ideal S1280x512 .bf16) (w : FVec Ideal S512x512 .bf16) (r : Fin 1280) (n : Fin 512) :
    matmul dot_S1280x512_S512x512_S1280x512_1_0_0_1_n_n none x w (constant (F := Ideal) S1280x512 .f32 0x00000000#32) (ix2 r n)
      = ∑ k : Fin 512, x (ix2 r k) * w (ix2 k n) := by
  refine (Ideal.matmul_constant_zero_apply dot_S1280x512_S512x512_S1280x512_1_0_0_1_n_n none x w (ix2 r n)).trans ?_
  rw [← Equiv.sum_comp (ValueIdx.contrEquiv1 dot_S1280x512_S512x512_S1280x512_1_0_0_1_n_n 512 rfl rfl).symm]
  refine Finset.sum_congr rfl fun k _ => ?_
  have hk := ValueIdx.contrEquiv1_symm_val dot_S1280x512_S512x512_S1280x512_1_0_0_1_n_n 512 rfl rfl k
  have el : dot_S1280x512_S512x512_S1280x512_1_0_0_1_n_n.lhsIdx (ix2 r n) ((ValueIdx.contrEquiv1 dot_S1280x512_S512x512_S1280x512_1_0_0_1_n_n 512 rfl rfl).symm k) = ix2 r k := funext fun a => Fin.ext (by
    match a with
    | ⟨0, _⟩ => exact lhs_layer1_0 _ _
    | ⟨1, _⟩ => exact (lhs_layer1_1 _ _).trans hk)
  have er : dot_S1280x512_S512x512_S1280x512_1_0_0_1_n_n.rhsIdx (ix2 r n) ((ValueIdx.contrEquiv1 dot_S1280x512_S512x512_S1280x512_1_0_0_1_n_n 512 rfl rfl).symm k) = ix2 k n := funext fun a => Fin.ext (by
    match a with
    | ⟨0, _⟩ => exact (rhs_layer1_0 _ _).trans hk
    | ⟨1, _⟩ => exact rhs_layer1_1 _ _)
  rw [el, er]

/-! ### The product layer2: operand indices, axis by axis -/

private theorem lhs_layer2_0 (i : S1280x1152.Idx) (q : dot_S1280x512_S512x1152_S1280x1152_1_0_0_1_n_n.contr.Idx) :
    (dot_S1280x512_S512x1152_S1280x1152_1_0_0_1_n_n.lhsIdx i q 0).val = (i 0).val := by
  unfold DotDims.lhsIdx
  rw [dif_neg (show ¬(0 : Fin S1280x512.rank) ∈ dot_S1280x512_S512x1152_S1280x1152_1_0_0_1_n_n.lhsBatch by decide), dif_pos (show (0 : Fin S1280x512.rank) ∈ dot_S1280x512_S512x1152_S1280x1152_1_0_0_1_n_n.lhsNonContracting by decide)]
  rfl
private theorem lhs_layer2_1 (i : S1280x1152.Idx) (q : dot_S1280x512_S512x1152_S1280x1152_1_0_0_1_n_n.contr.Idx) :
    (dot_S1280x512_S512x1152_S1280x1152_1_0_0_1_n_n.lhsIdx i q 1).val = (q ⟨0, by decide⟩).val :=
  dot_S1280x512_S512x1152_S1280x1152_1_0_0_1_n_n.lhsIdx_val_of_single rfl i q
private theorem rhs_layer2_0 (i : S1280x1152.Idx) (q : dot_S1280x512_S512x1152_S1280x1152_1_0_0_1_n_n.contr.Idx) :
    (dot_S1280x512_S512x1152_S1280x1152_1_0_0_1_n_n.rhsIdx i q 0).val = (q ⟨0, by decide⟩).val :=
  dot_S1280x512_S512x1152_S1280x1152_1_0_0_1_n_n.rhsIdx_val_of_single rfl i q
private theorem rhs_layer2_1 (i : S1280x1152.Idx) (q : dot_S1280x512_S512x1152_S1280x1152_1_0_0_1_n_n.contr.Idx) :
    (dot_S1280x512_S512x1152_S1280x1152_1_0_0_1_n_n.rhsIdx i q 1).val = (i 1).val := by
  unfold DotDims.rhsIdx
  rw [dif_neg (show ¬(1 : Fin S512x1152.rank) ∈ dot_S1280x512_S512x1152_S1280x1152_1_0_0_1_n_n.rhsBatch by decide), dif_pos (show (1 : Fin S512x1152.rank) ∈ dot_S1280x512_S512x1152_S1280x1152_1_0_0_1_n_n.rhsNonContracting by decide)]
  rfl

/-- A product into the zero accumulator, read at row `r` and column `n`: the sum over the contracted coordinate. -/
private theorem matmul_layer2_apply (x : FVec Ideal S1280x512 .bf16) (w : FVec Ideal S512x1152 .bf16) (r : Fin 1280) (n : Fin 1152) :
    matmul dot_S1280x512_S512x1152_S1280x1152_1_0_0_1_n_n none x w (constant (F := Ideal) S1280x1152 .f32 0x00000000#32) (ix2 r n)
      = ∑ k : Fin 512, x (ix2 r k) * w (ix2 k n) := by
  refine (Ideal.matmul_constant_zero_apply dot_S1280x512_S512x1152_S1280x1152_1_0_0_1_n_n none x w (ix2 r n)).trans ?_
  rw [← Equiv.sum_comp (ValueIdx.contrEquiv1 dot_S1280x512_S512x1152_S1280x1152_1_0_0_1_n_n 512 rfl rfl).symm]
  refine Finset.sum_congr rfl fun k _ => ?_
  have hk := ValueIdx.contrEquiv1_symm_val dot_S1280x512_S512x1152_S1280x1152_1_0_0_1_n_n 512 rfl rfl k
  have el : dot_S1280x512_S512x1152_S1280x1152_1_0_0_1_n_n.lhsIdx (ix2 r n) ((ValueIdx.contrEquiv1 dot_S1280x512_S512x1152_S1280x1152_1_0_0_1_n_n 512 rfl rfl).symm k) = ix2 r k := funext fun a => Fin.ext (by
    match a with
    | ⟨0, _⟩ => exact lhs_layer2_0 _ _
    | ⟨1, _⟩ => exact (lhs_layer2_1 _ _).trans hk)
  have er : dot_S1280x512_S512x1152_S1280x1152_1_0_0_1_n_n.rhsIdx (ix2 r n) ((ValueIdx.contrEquiv1 dot_S1280x512_S512x1152_S1280x1152_1_0_0_1_n_n 512 rfl rfl).symm k) = ix2 k n := funext fun a => Fin.ext (by
    match a with
    | ⟨0, _⟩ => exact (rhs_layer2_0 _ _).trans hk
    | ⟨1, _⟩ => exact rhs_layer2_1 _ _)
  rw [el, er]

/-! ### The product residual: operand indices, axis by axis -/

private theorem lhs_residual_0 (i : S1280x128.Idx) (q : dot_S1280x256_S256x128_S1280x128_1_0_0_1_n_n.contr.Idx) :
    (dot_S1280x256_S256x128_S1280x128_1_0_0_1_n_n.lhsIdx i q 0).val = (i 0).val := by
  unfold DotDims.lhsIdx
  rw [dif_neg (show ¬(0 : Fin S1280x256.rank) ∈ dot_S1280x256_S256x128_S1280x128_1_0_0_1_n_n.lhsBatch by decide), dif_pos (show (0 : Fin S1280x256.rank) ∈ dot_S1280x256_S256x128_S1280x128_1_0_0_1_n_n.lhsNonContracting by decide)]
  rfl
private theorem lhs_residual_1 (i : S1280x128.Idx) (q : dot_S1280x256_S256x128_S1280x128_1_0_0_1_n_n.contr.Idx) :
    (dot_S1280x256_S256x128_S1280x128_1_0_0_1_n_n.lhsIdx i q 1).val = (q ⟨0, by decide⟩).val :=
  dot_S1280x256_S256x128_S1280x128_1_0_0_1_n_n.lhsIdx_val_of_single rfl i q
private theorem rhs_residual_0 (i : S1280x128.Idx) (q : dot_S1280x256_S256x128_S1280x128_1_0_0_1_n_n.contr.Idx) :
    (dot_S1280x256_S256x128_S1280x128_1_0_0_1_n_n.rhsIdx i q 0).val = (q ⟨0, by decide⟩).val :=
  dot_S1280x256_S256x128_S1280x128_1_0_0_1_n_n.rhsIdx_val_of_single rfl i q
private theorem rhs_residual_1 (i : S1280x128.Idx) (q : dot_S1280x256_S256x128_S1280x128_1_0_0_1_n_n.contr.Idx) :
    (dot_S1280x256_S256x128_S1280x128_1_0_0_1_n_n.rhsIdx i q 1).val = (i 1).val := by
  unfold DotDims.rhsIdx
  rw [dif_neg (show ¬(1 : Fin S256x128.rank) ∈ dot_S1280x256_S256x128_S1280x128_1_0_0_1_n_n.rhsBatch by decide), dif_pos (show (1 : Fin S256x128.rank) ∈ dot_S1280x256_S256x128_S1280x128_1_0_0_1_n_n.rhsNonContracting by decide)]
  rfl

/-- A product into the zero accumulator, read at row `r` and column `n`: the sum over the contracted coordinate. -/
private theorem matmul_residual_apply (x : FVec Ideal S1280x256 .bf16) (w : FVec Ideal S256x128 .bf16) (r : Fin 1280) (n : Fin 128) :
    matmul dot_S1280x256_S256x128_S1280x128_1_0_0_1_n_n none x w (constant (F := Ideal) S1280x128 .f32 0x00000000#32) (ix2 r n)
      = ∑ k : Fin 256, x (ix2 r k) * w (ix2 k n) := by
  refine (Ideal.matmul_constant_zero_apply dot_S1280x256_S256x128_S1280x128_1_0_0_1_n_n none x w (ix2 r n)).trans ?_
  rw [← Equiv.sum_comp (ValueIdx.contrEquiv1 dot_S1280x256_S256x128_S1280x128_1_0_0_1_n_n 256 rfl rfl).symm]
  refine Finset.sum_congr rfl fun k _ => ?_
  have hk := ValueIdx.contrEquiv1_symm_val dot_S1280x256_S256x128_S1280x128_1_0_0_1_n_n 256 rfl rfl k
  have el : dot_S1280x256_S256x128_S1280x128_1_0_0_1_n_n.lhsIdx (ix2 r n) ((ValueIdx.contrEquiv1 dot_S1280x256_S256x128_S1280x128_1_0_0_1_n_n 256 rfl rfl).symm k) = ix2 r k := funext fun a => Fin.ext (by
    match a with
    | ⟨0, _⟩ => exact lhs_residual_0 _ _
    | ⟨1, _⟩ => exact (lhs_residual_1 _ _).trans hk)
  have er : dot_S1280x256_S256x128_S1280x128_1_0_0_1_n_n.rhsIdx (ix2 r n) ((ValueIdx.contrEquiv1 dot_S1280x256_S256x128_S1280x128_1_0_0_1_n_n 256 rfl rfl).symm k) = ix2 k n := funext fun a => Fin.ext (by
    match a with
    | ⟨0, _⟩ => exact (rhs_residual_0 _ _).trans hk
    | ⟨1, _⟩ => exact rhs_residual_1 _ _)
  rw [el, er]

/-! ### The concatenated row -/

/-- The row `[v0 r | v2 r | v3 r]` at column `c`. -/
private theorem concat_apply (v0 : Vec Ideal S1280x128 .f32) (v2 : Vec Ideal S1280x256 .f32) (v3 : Vec Ideal S1280x128 .f32)
    (r : Fin 1280) (c : Fin 512) :
    concatenate S1280x512 1 [⟨S1280x128, v0⟩, ⟨S1280x256, v2⟩, ⟨S1280x128, v3⟩]
        concatenates_S1280x128_S1280x256_S1280x128_S1280x512_d1 (ix2 r c)
      = cat3 (rowOf v0 r) (rowOf v2 r) (rowOf v3 r) c := by
  unfold cat3
  by_cases h₁ : c.val < 128
  · rw [dif_pos h₁]
    refine concatenate_apply_piece (1 : Fin S1280x512.rank) _ _ (ix2 r c) 0 (by show (0 : Nat) < 3; decide) S1280x128 v0 rfl rfl 0 rfl
      (ix2 r ⟨c.val, h₁⟩) (fun b hb => ?_) ?_
    · match b with
      | ⟨0, _⟩ => rfl
      | ⟨1, _⟩ => exact absurd rfl hb
    · show 0 + c.val = c.val
      omega
  · rw [dif_neg h₁]
    by_cases h₂ : c.val < 384
    · rw [dif_pos h₂]
      refine concatenate_apply_piece (1 : Fin S1280x512.rank) _ _ (ix2 r c) 1 (by show (1 : Nat) < 3; decide) S1280x256 v2 rfl rfl 128 rfl
        (ix2 r ⟨c.val - 128, by omega⟩) (fun b hb => ?_) ?_
      · match b with
        | ⟨0, _⟩ => rfl
        | ⟨1, _⟩ => exact absurd rfl hb
      · show 128 + (c.val - 128) = c.val
        omega
    · rw [dif_neg h₂]
      refine concatenate_apply_piece (1 : Fin S1280x512.rank) _ _ (ix2 r c) 2 (by show (2 : Nat) < 3; decide) S1280x128 v3 rfl rfl 384 rfl
        (ix2 r ⟨c.val - 384, by omega⟩) (fun b hb => ?_) ?_
      · match b with
        | ⟨0, _⟩ => rfl
        | ⟨1, _⟩ => exact absurd rfl hb
      · show 384 + (c.val - 384) = c.val
        omega

/-! ### The bias rows -/

/-- The bias row broadcast down the rows, read at row `r` and column `n`: the row's entry `n`. -/
private theorem bias_layer1_apply (b : Vec Ideal S1x512 .f32) (r : Fin 1280) (n : Fin 512) :
    broadcastTo S1280x512 (shapeCast S1x512 b shapeCasts_S1x512_S1x512) broadcasts_S1x512_S1280x512 (ix2 r n) = rowOf b 0 n := by
  rw [shapeCast_self]
  exact broadcastTo_apply b broadcasts_S1x512_S1280x512 (ix2 r n) (ix2 0 n) (fun a => by
    match a with
    | ⟨0, _⟩ => show 0 = if (1 : Nat) = 1 then 0 else r.val; rw [if_pos rfl]
    | ⟨1, _⟩ => show n.val = if (512 : Nat) = 1 then 0 else n.val; rw [if_neg (by decide)])

/-- The bias row broadcast down the rows, read at row `r` and column `n`: the row's entry `n`. -/
private theorem bias_layer2_apply (b : Vec Ideal S1x1152 .f32) (r : Fin 1280) (n : Fin 1152) :
    broadcastTo S1280x1152 (shapeCast S1x1152 b shapeCasts_S1x1152_S1x1152) broadcasts_S1x1152_S1280x1152 (ix2 r n) = rowOf b 0 n := by
  rw [shapeCast_self]
  exact broadcastTo_apply b broadcasts_S1x1152_S1280x1152 (ix2 r n) (ix2 0 n) (fun a => by
    match a with
    | ⟨0, _⟩ => show 0 = if (1 : Nat) = 1 then 0 else r.val; rw [if_pos rfl]
    | ⟨1, _⟩ => show n.val = if (1152 : Nat) = 1 then 0 else n.val; rw [if_neg (by decide)])

/-- The bias row broadcast down the rows, read at row `r` and column `n`: the row's entry `n`. -/
private theorem bias_residual_apply (b : Vec Ideal S1x128 .f32) (r : Fin 1280) (n : Fin 128) :
    broadcastTo S1280x128 (shapeCast S1x128 b shapeCasts_S1x128_S1x128) broadcasts_S1x128_S1280x128 (ix2 r n) = rowOf b 0 n := by
  rw [shapeCast_self]
  exact broadcastTo_apply b broadcasts_S1x128_S1280x128 (ix2 r n) (ix2 0 n) (fun a => by
    match a with
    | ⟨0, _⟩ => show 0 = if (1 : Nat) = 1 then 0 else r.val; rw [if_pos rfl]
    | ⟨1, _⟩ => show n.val = if (128 : Nat) = 1 then 0 else n.val; rw [if_neg (by decide)])

/-! ### The two rectified affine layers on a block of rows -/

/-- The first layer on a block of rows `x`, entry `k` of row `r`: `max (Σ_c x r c · w c k + b k, 0)`. -/
private theorem layer1_apply (x : FVec Ideal S1280x512 .f32) (w : FVec Ideal S512x512 .bf16) (b : Vec Ideal S1x512 .f32)
    (r : Fin 1280) (k : Fin 512) :
    maximumf (addf
        (matmul dot_S1280x512_S512x512_S1280x512_1_0_0_1_n_n none (truncf .bf16 x bitsLt_bf16_f32)
          (shapeCast S512x512 w shapeCasts_S512x512_S512x512) (constant (F := Ideal) S1280x512 .f32 0x00000000#32))
        (broadcastTo S1280x512 (shapeCast S1x512 b shapeCasts_S1x512_S1x512) broadcasts_S1x512_S1280x512))
      (broadcast S1280x512 (Scalar.ofBits (F := Ideal) .f32 0x00000000#32)) (ix2 r k)
      = rdense (rowOf x r) (matOf w) (rowOf b 0) k := by
  rw [maximumf_apply, addf_apply, matmul_layer1_apply, bias_layer1_apply, shapeCast_self]
  rfl

/-- The second layer on a block of rows `x`, entry `n` of row `r`. -/
private theorem layer2_apply (x : FVec Ideal S1280x512 .f32) (w : FVec Ideal S512x1152 .bf16) (b : Vec Ideal S1x1152 .f32)
    (r : Fin 1280) (n : Fin 1152) :
    maximumf (addf
        (matmul dot_S1280x512_S512x1152_S1280x1152_1_0_0_1_n_n none (truncf .bf16 x bitsLt_bf16_f32)
          (shapeCast S512x1152 w shapeCasts_S512x1152_S512x1152) (constant (F := Ideal) S1280x1152 .f32 0x00000000#32))
        (broadcastTo S1280x1152 (shapeCast S1x1152 b shapeCasts_S1x1152_S1x1152) broadcasts_S1x1152_S1280x1152))
      (broadcast S1280x1152 (Scalar.ofBits (F := Ideal) .f32 0x00000000#32)) (ix2 r n)
      = rdense (rowOf x r) (matOf w) (rowOf b 0) n := by
  rw [maximumf_apply, addf_apply, matmul_layer2_apply, bias_layer2_apply, shapeCast_self]
  rfl

/-! ### The payloads -/

/-- The rectified second layer over the rectified first layer of the row `[v0 r | v2 r | v3 r]`, entry `n`. -/
theorem pay2_apply (v0 : Vec Ideal S1280x128 .f32) (v2 : Vec Ideal S1280x256 .f32) (v3 : Vec Ideal S1280x128 .f32)
    (v7 : Vec Ideal S512x512 .bf16) (v10 : Vec Ideal S1x512 .f32) (v17 : Vec Ideal S512x1152 .bf16) (v20 : Vec Ideal S1x1152 .f32)
    (r : Fin 1280) (n : Fin 1152) :
    k0_pay2 (F := Ideal) v0 v2 v3 v7 v10 v17 v20 (ix2 r n)
      = net1 (rowOf v0 r) (rowOf v2 r) (rowOf v3 r) (matOf v7) (rowOf v10 0) (matOf v17) (rowOf v20 0) n := by
  unfold k0_pay2
  refine (layer2_apply _ v17 v20 r n).trans ?_
  unfold net1
  refine congrArg (fun f => rdense f (matOf v17) (rowOf v20 0) n) (funext fun k => ?_)
  refine (layer1_apply _ v7 v10 r k).trans ?_
  refine congrArg (fun f => rdense f (matOf v7) (rowOf v10 0) k) (funext fun c => ?_)
  rw [shapeCast_self, shapeCast_self]
  exact concat_apply v0 v2 v3 r c

/-- The first band (columns 0 … 511): the subject's message. -/
theorem pay3_apply (v0 : Vec Ideal S1280x128 .f32) (v2 : Vec Ideal S1280x256 .f32) (v3 : Vec Ideal S1280x128 .f32)
    (v7 : Vec Ideal S512x512 .bf16) (v10 : Vec Ideal S1x512 .f32) (v17 : Vec Ideal S512x1152 .bf16) (v20 : Vec Ideal S1x1152 .f32)
    (r : Fin 1280) (j : Fin 512) :
    k0_pay3 (F := Ideal) v0 v2 v3 v7 v10 v17 v20 (ix2 r j)
      = net1 (rowOf v0 r) (rowOf v2 r) (rowOf v3 r) (matOf v7) (rowOf v10 0) (matOf v17) (rowOf v20 0) (firstCol j) := by
  unfold k0_pay3
  refine (extractStridedSlice_apply ![0, 0] _ slices_S1280x1152_o0_0_S1280x512 (ix2 r j) (ix2 r (firstCol j)) (fun a => by
    match a with
    | ⟨0, _⟩ => show r.val = 0 + r.val; omega
    | ⟨1, _⟩ => show j.val = 0 + j.val; omega)).trans ?_
  exact pay2_apply v0 v2 v3 v7 v10 v17 v20 r (firstCol j)

/-- The last band (columns 640 … 1151): the object's message. -/
theorem pay5_apply (v0 : Vec Ideal S1280x128 .f32) (v2 : Vec Ideal S1280x256 .f32) (v3 : Vec Ideal S1280x128 .f32)
    (v7 : Vec Ideal S512x512 .bf16) (v10 : Vec Ideal S1x512 .f32) (v17 : Vec Ideal S512x1152 .bf16) (v20 : Vec Ideal S1x1152 .f32)
    (r : Fin 1280) (j : Fin 512) :
    k0_pay5 (F := Ideal) v0 v2 v3 v7 v10 v17 v20 (ix2 r j)
      = net1 (rowOf v0 r) (rowOf v2 r) (rowOf v3 r) (matOf v7) (rowOf v10 0) (matOf v17) (rowOf v20 0) (lastCol j) := by
  unfold k0_pay5
  refine (extractStridedSlice_apply ![0, 640] _ slices_S1280x1152_o0_640_S1280x512 (ix2 r j) (ix2 r (lastCol j)) (fun a => by
    match a with
    | ⟨0, _⟩ => show r.val = 0 + r.val; omega
    | ⟨1, _⟩ => show 640 + j.val = 640 + j.val; rfl)).trans ?_
  exact pay2_apply v0 v2 v3 v7 v10 v17 v20 r (lastCol j)

/-- The middle band (columns 512 … 639) of the network's output. -/
private theorem pay4_apply (v0 : Vec Ideal S1280x128 .f32) (v2 : Vec Ideal S1280x256 .f32) (v3 : Vec Ideal S1280x128 .f32)
    (v7 : Vec Ideal S512x512 .bf16) (v10 : Vec Ideal S1x512 .f32) (v17 : Vec Ideal S512x1152 .bf16) (v20 : Vec Ideal S1x1152 .f32)
    (r : Fin 1280) (j : Fin 128) :
    k0_pay4 (F := Ideal) v0 v2 v3 v7 v10 v17 v20 (ix2 r j)
      = net1 (rowOf v0 r) (rowOf v2 r) (rowOf v3 r) (matOf v7) (rowOf v10 0) (matOf v17) (rowOf v20 0) (midCol j) := by
  unfold k0_pay4
  refine (extractStridedSlice_apply ![0, 512] _ slices_S1280x1152_o0_512_S1280x128 (ix2 r j) (ix2 r (midCol j)) (fun a => by
    match a with
    | ⟨0, _⟩ => show r.val = 0 + r.val; omega
    | ⟨1, _⟩ => show 512 + j.val = 512 + j.val; rfl)).trans ?_
  exact pay2_apply v0 v2 v3 v7 v10 v17 v20 r (midCol j)

/-- The residual product of the predicate rows, entry `j` of row `r`. -/
private theorem pay6_apply (v2 : Vec Ideal S1280x256 .f32) (v30 : Vec Ideal S256x128 .bf16) (r : Fin 1280) (j : Fin 128) :
    k0_pay6 (F := Ideal) v2 v30 (ix2 r j) = ∑ k : Fin 256, rowOf v2 r k * matOf v30 k j := by
  unfold k0_pay6
  rw [matmul_residual_apply, shapeCast_self]
  rfl

/-- The residual bias row, broadcast down the rows. -/
private theorem pay7_apply (v33 : Vec Ideal S1x128 .f32) (r : Fin 1280) (j : Fin 128) :
    k0_pay7 (F := Ideal) v33 (ix2 r j) = rowOf v33 0 j := by
  unfold k0_pay7
  exact bias_residual_apply v33 r j

/-- The middle band (columns 512 … 639) plus the residual layer of the predicate row, added whole. -/
theorem pay1_apply (v0 : Vec Ideal S1280x128 .f32) (v2 : Vec Ideal S1280x256 .f32) (v3 : Vec Ideal S1280x128 .f32)
    (v7 : Vec Ideal S512x512 .bf16) (v10 : Vec Ideal S1x512 .f32) (v17 : Vec Ideal S512x1152 .bf16) (v20 : Vec Ideal S1x1152 .f32)
    (v30 : Vec Ideal S256x128 .bf16) (v33 : Vec Ideal S1x128 .f32) (r : Fin 1280) (j : Fin 128) :
    k0_pay1 (F := Ideal) (k0_pay4 v0 v2 v3 v7 v10 v17 v20) (k0_pay6 v2 v30) (k0_pay7 v33) (ix2 r j)
      = predOutWhole (net1 (rowOf v0 r) (rowOf v2 r) (rowOf v3 r) (matOf v7) (rowOf v10 0) (matOf v17) (rowOf v20 0) (midCol j))
          (rowOf v2 r) (matOf v30) (rowOf v33 0) j := by
  unfold k0_pay1
  rw [addf_apply, addf_apply, pay4_apply, pay6_apply, pay7_apply]
  rfl

end Cert.KernelIdeal.Pay0

end
-- ==== Proof.Value0.lean ====
/-
  The first kernel's three output arrays after its 125 grid points, read at an entry.

  Point t stages rows 1280·t … 1280·t + 1279 of the three row-blocked operands and the whole weight and bias
  operands, and writes back rows 1280·t … 1280·t + 1279 of each output. Row T of an output therefore depends only on
  row T of the operands, and the blocks tile the outputs (the point that covers row T is T / 1280).
-/
import proofs.«414288_j72103910965765_1_alg».proof.Proof.Gen.KernelIdeal.Frame
import proofs.«414288_j72103910965765_1_alg».proof.Proof.Pay0

set_option maxRecDepth 16384

noncomputable section

namespace Cert.KernelIdeal.Value0

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec

-- the buffer contents when the region is entered
variable (V : (c : Dev nD) → (b : Ref sig .tc) → Buf (Elt Ideal) ((c : Thread nD τ).loc b))

/-- The zero offsets of a whole-block access, as a constant function. -/
theorem zeroOffsets : (![0, 0] : Fin 2 → Nat) = fun _ => 0 := funext fun a => by fin_cases a <;> rfl

/-- The block indices, decided over the 125 points: the three row-blocked operands and the three outputs are at
    block (t, 0), the weight and bias operands at block (0, 0). -/
theorem rowBlocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The weight and bias operands are at block (0, 0) at every point. -/
theorem wholeBlocks : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- There are 125 points. -/
theorem pointBound (t : Fin cfg0.N) : t.val < 125 := by
  have h : cfg0.N = 125 := N_0
  have := t.isLt
  omega

/-- Row r of the subject block at point t is row 1280·t + r of the subject array. -/
theorem subjBlock (c : Dev nD) (t : Fin cfg0.N) (r : Fin 1280) (k : Fin 128) (h : 1280 * t.val + r.val < 160000) :
    (iblk0 V c 0 t : Vec Ideal S1280x128 .f32) (ix2 r k)
      = (V c main_v4 : S160000x128.Idx → EReal) (ix2 ⟨1280 * t.val + r.val, h⟩ k) := by
  obtain ⟨e0, e1, -⟩ := rowBlocks t
  unfold iblk0
  rw [View.read_apply]
  show V c main_v4 _ = V c main_v4 _
  congr 1
  funext a
  apply Fin.ext
  match a with
  | ⟨0, _⟩ => show win0_0.index t (0 : Fin 2) * 1280 + 1 * r.val = 1280 * t.val + r.val; rw [e0]; omega
  | ⟨1, _⟩ => show win0_0.index t (1 : Fin 2) * 128 + 1 * k.val = k.val; rw [e1]; omega

/-- Row r of the predicate block at point t is row 1280·t + r of the predicate array. -/
theorem predBlock (c : Dev nD) (t : Fin cfg0.N) (r : Fin 1280) (k : Fin 256) (h : 1280 * t.val + r.val < 160000) :
    (iblk0 V c 1 t : Vec Ideal S1280x256 .f32) (ix2 r k)
      = (V c main_arg1 : S160000x256.Idx → EReal) (ix2 ⟨1280 * t.val + r.val, h⟩ k) := by
  obtain ⟨-, -, e0, e1, -⟩ := rowBlocks t
  unfold iblk0
  rw [View.read_apply]
  show V c main_arg1 _ = V c main_arg1 _
  congr 1
  funext a
  apply Fin.ext
  match a with
  | ⟨0, _⟩ => show win0_1.index t (0 : Fin 2) * 1280 + 1 * r.val = 1280 * t.val + r.val; rw [e0]; omega
  | ⟨1, _⟩ => show win0_1.index t (1 : Fin 2) * 256 + 1 * k.val = k.val; rw [e1]; omega

/-- Row r of the object block at point t is row 1280·t + r of the object array. -/
theorem objBlock (c : Dev nD) (t : Fin cfg0.N) (r : Fin 1280) (k : Fin 128) (h : 1280 * t.val + r.val < 160000) :
    (iblk0 V c 2 t : Vec Ideal S1280x128 .f32) (ix2 r k)
      = (V c main_v5 : S160000x128.Idx → EReal) (ix2 ⟨1280 * t.val + r.val, h⟩ k) := by
  obtain ⟨-, -, -, -, e0, e1, -⟩ := rowBlocks t
  unfold iblk0
  rw [View.read_apply]
  show V c main_v5 _ = V c main_v5 _
  congr 1
  funext a
  apply Fin.ext
  match a with
  | ⟨0, _⟩ => show win0_2.index t (0 : Fin 2) * 1280 + 1 * r.val = 1280 * t.val + r.val; rw [e0]; omega
  | ⟨1, _⟩ => show win0_2.index t (1 : Fin 2) * 128 + 1 * k.val = k.val; rw [e1]; omega

/-- The weight and bias operands have one block, at block index (0, 0): the block is the array.
    The first layer's weight matrix. -/
theorem w1Block (c : Dev nD) (t : Fin cfg0.N) :
    (iblk0 V c 3 t : Vec Ideal S512x512 .bf16) = (V c main_v6 : S512x512.Idx → EReal) := by
  obtain ⟨e0, e1, -⟩ := wholeBlocks t
  refine funext fun (y : S512x512.Idx) => ?_
  unfold iblk0
  rw [View.read_apply]
  show V c main_v6 _ = V c main_v6 _
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 512 + 1 * (y 1).val = (y 1).val; rw [e1]; omega

/-- The first layer's bias row. -/
theorem b1Block (c : Dev nD) (t : Fin cfg0.N) :
    (iblk0 V c 4 t : Vec Ideal S1x512 .f32) = (V c main_v9 : S1x512.Idx → EReal) := by
  obtain ⟨-, -, e0, e1, -⟩ := wholeBlocks t
  refine funext fun (y : S1x512.Idx) => ?_
  unfold iblk0
  rw [View.read_apply]
  show V c main_v9 _ = V c main_v9 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- The second layer's weight matrix. -/
theorem w2Block (c : Dev nD) (t : Fin cfg0.N) :
    (iblk0 V c 5 t : Vec Ideal S512x1152 .bf16) = (V c main_v7 : S512x1152.Idx → EReal) := by
  obtain ⟨-, -, -, -, e0, e1, -⟩ := wholeBlocks t
  refine funext fun (y : S512x1152.Idx) => ?_
  unfold iblk0
  rw [View.read_apply]
  show V c main_v7 _ = V c main_v7 _
  congr 1
  funext a
  apply Fin.ext
  match a with
  | ⟨0, _⟩ => show win0_5.index t (0 : Fin 2) * 512 + 1 * (y 0).val = (y 0).val; rw [e0]; omega
  | ⟨1, _⟩ => show win0_5.index t (1 : Fin 2) * 1152 + 1 * (y 1).val = (y 1).val; rw [e1]; omega

/-- The second layer's bias row. -/
theorem b2Block (c : Dev nD) (t : Fin cfg0.N) :
    (iblk0 V c 6 t : Vec Ideal S1x1152 .f32) = (V c main_v10 : S1x1152.Idx → EReal) := by
  obtain ⟨-, -, -, -, -, -, e0, e1, -⟩ := wholeBlocks t
  refine funext fun (y : S1x1152.Idx) => ?_
  unfold iblk0
  rw [View.read_apply]
  show V c main_v10 _ = V c main_v10 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 1152 + 1 * (y 1).val = (y 1).val; rw [e1]; omega

/-- The residual layer's weight matrix. -/
theorem wpBlock (c : Dev nD) (t : Fin cfg0.N) :
    (iblk0 V c 7 t : Vec Ideal S256x128 .bf16) = (V c main_v8 : S256x128.Idx → EReal) := by
  obtain ⟨-, -, -, -, -, -, -, -, e0, e1, -⟩ := wholeBlocks t
  refine funext fun (y : S256x128.Idx) => ?_
  unfold iblk0
  rw [View.read_apply]
  show V c main_v8 _ = V c main_v8 _
  congr 1
  funext a
  apply Fin.ext
  match a with
  | ⟨0, _⟩ => show win0_7.index t (0 : Fin 2) * 256 + 1 * (y 0).val = (y 0).val; rw [e0]; omega
  | ⟨1, _⟩ => show win0_7.index t (1 : Fin 2) * 128 + 1 * (y 1).val = (y 1).val; rw [e1]; omega

/-- The residual layer's bias row. -/
theorem bpBlock (c : Dev nD) (t : Fin cfg0.N) :
    (iblk0 V c 8 t : Vec Ideal S1x128 .f32) = (V c main_v11 : S1x128.Idx → EReal) := by
  obtain ⟨-, -, -, -, -, -, -, -, -, -, e0, e1⟩ := wholeBlocks t
  refine funext fun (y : S1x128.Idx) => ?_
  unfold iblk0
  rw [View.read_apply]
  show V c main_v11 _ = V c main_v11 _
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- The first network on row T of the operands as the region finds them. -/
abbrev netRow (c : Dev nD) (T : Fin 160000) : Fin 1152 → EReal :=
  net1 (rowOf (V c main_v4 : S160000x128.Idx → EReal) T) (rowOf (V c main_arg1 : S160000x256.Idx → EReal) T)
    (rowOf (V c main_v5 : S160000x128.Idx → EReal) T) (matOf (V c main_v6 : S512x512.Idx → EReal))
    (rowOf (V c main_v9 : S1x512.Idx → EReal) 0) (matOf (V c main_v7 : S512x1152.Idx → EReal))
    (rowOf (V c main_v10 : S1x1152.Idx → EReal) 0)

/-- The first network on row r of the blocks at point t is the first network on row 1280·t + r of the arrays. -/
theorem netBlock (c : Dev nD) (t : Fin cfg0.N) (r : Fin 1280) (h : 1280 * t.val + r.val < 160000) (n : Fin 1152) :
    net1 (rowOf (iblk0 V c 0 t : Vec Ideal S1280x128 .f32) r) (rowOf (iblk0 V c 1 t : Vec Ideal S1280x256 .f32) r)
      (rowOf (iblk0 V c 2 t : Vec Ideal S1280x128 .f32) r) (matOf (iblk0 V c 3 t : Vec Ideal S512x512 .bf16))
      (rowOf (iblk0 V c 4 t : Vec Ideal S1x512 .f32) 0) (matOf (iblk0 V c 5 t : Vec Ideal S512x1152 .bf16))
      (rowOf (iblk0 V c 6 t : Vec Ideal S1x1152 .f32) 0) n
      = netRow V c ⟨1280 * t.val + r.val, h⟩ n := by
  have e0 : rowOf (iblk0 V c 0 t : Vec Ideal S1280x128 .f32) r
      = rowOf (V c main_v4 : S160000x128.Idx → EReal) ⟨1280 * t.val + r.val, h⟩ := funext fun k => subjBlock V c t r k h
  have e1 : rowOf (iblk0 V c 1 t : Vec Ideal S1280x256 .f32) r
      = rowOf (V c main_arg1 : S160000x256.Idx → EReal) ⟨1280 * t.val + r.val, h⟩ := funext fun k => predBlock V c t r k h
  have e2 : rowOf (iblk0 V c 2 t : Vec Ideal S1280x128 .f32) r
      = rowOf (V c main_v5 : S160000x128.Idx → EReal) ⟨1280 * t.val + r.val, h⟩ := funext fun k => objBlock V c t r k h
  rw [e0, e1, e2, w1Block V c t, b1Block V c t, w2Block V c t, b2Block V c t]

/-! ## What each point writes back -/

/-- The subject messages, as one function of the arrays the region finds. -/
abbrev subjMsgs (c : Dev nD) : S160000x512.Idx → EReal := fun i =>
  netRow V c ⟨(i 0).val, (i 0).isLt⟩ (firstCol ⟨(i 1).val, (i 1).isLt⟩)

/-- The new predicate vectors. -/
abbrev predVecs (c : Dev nD) : S160000x128.Idx → EReal := fun i =>
  predOutWhole (netRow V c ⟨(i 0).val, (i 0).isLt⟩ (midCol ⟨(i 1).val, (i 1).isLt⟩))
    (rowOf (V c main_arg1 : S160000x256.Idx → EReal) ⟨(i 0).val, (i 0).isLt⟩) (matOf (V c main_v8 : S256x128.Idx → EReal))
    (rowOf (V c main_v11 : S1x128.Idx → EReal) 0) ⟨(i 1).val, (i 1).isLt⟩

/-- The object messages. -/
abbrev objMsgs (c : Dev nD) : S160000x512.Idx → EReal := fun i =>
  netRow V c ⟨(i 0).val, (i 0).isLt⟩ (lastCol ⟨(i 1).val, (i 1).isLt⟩)

/-- Entry (r, j) of the subject messages' block at point t sits at (1280·t + r, j) of the array. -/
theorem subjMsgsAt (t : Fin cfg0.N) (r : Fin 1280) (j : Fin 512) (h : 1280 * t.val + r.val < 160000) :
    ((cfg0.win 9).blk t).view.emb (ix2 r j : S1280x512.Idx) = (ix2 ⟨1280 * t.val + r.val, h⟩ j : S160000x512.Idx) := by
  obtain ⟨-, -, -, -, -, -, e0, e1, -⟩ := rowBlocks t
  funext a
  apply Fin.ext
  match a with
  | ⟨0, _⟩ => show win0_9.index t (0 : Fin 2) * 1280 + 1 * r.val = 1280 * t.val + r.val; rw [e0]; omega
  | ⟨1, _⟩ => show win0_9.index t (1 : Fin 2) * 512 + 1 * j.val = j.val; rw [e1]; omega

/-- Entry (r, j) of the new predicate vectors' block at point t sits at (1280·t + r, j) of the array. -/
theorem predVecsAt (t : Fin cfg0.N) (r : Fin 1280) (j : Fin 128) (h : 1280 * t.val + r.val < 160000) :
    ((cfg0.win 10).blk t).view.emb (ix2 r j : S1280x128.Idx) = (ix2 ⟨1280 * t.val + r.val, h⟩ j : S160000x128.Idx) := by
  obtain ⟨-, -, -, -, -, -, -, -, e0, e1, -⟩ := rowBlocks t
  funext a
  apply Fin.ext
  match a with
  | ⟨0, _⟩ => show win0_10.index t (0 : Fin 2) * 1280 + 1 * r.val = 1280 * t.val + r.val; rw [e0]; omega
  | ⟨1, _⟩ => show win0_10.index t (1 : Fin 2) * 128 + 1 * j.val = j.val; rw [e1]; omega

/-- Entry (r, j) of the object messages' block at point t sits at (1280·t + r, j) of the array. -/
theorem objMsgsAt (t : Fin cfg0.N) (r : Fin 1280) (j : Fin 512) (h : 1280 * t.val + r.val < 160000) :
    ((cfg0.win 11).blk t).view.emb (ix2 r j : S1280x512.Idx) = (ix2 ⟨1280 * t.val + r.val, h⟩ j : S160000x512.Idx) := by
  obtain ⟨-, -, -, -, -, -, -, -, -, -, e0, e1⟩ := rowBlocks t
  funext a
  apply Fin.ext
  match a with
  | ⟨0, _⟩ => show win0_11.index t (0 : Fin 2) * 1280 + 1 * r.val = 1280 * t.val + r.val; rw [e0]; omega
  | ⟨1, _⟩ => show win0_11.index t (1 : Fin 2) * 512 + 1 * j.val = j.val; rw [e1]; omega

/-- Point t writes back block t of the subject messages. -/
theorem flushed9 (c : Dev nD) (t : Fin cfg0.N) :
    (dat0 V c).flushed 9 t = ((cfg0.win 9).blk t).view.read (Elt Ideal) (subjMsgs V c) := by
  show (cfg0.win 9).cut (grid0.coords t) ((dat0 V c).after 9 t) = _
  rw [after0_9]
  unfold out0_9
  rw [View.canon_unit_zero zeroOffsets]
  simp only [View.ld_unit_zero (S := S1280x128) zeroOffsets, View.ld_unit_zero (S := S1280x256) zeroOffsets,
    View.ld_unit_zero (S := S512x512) zeroOffsets, View.ld_unit_zero (S := S1x512) zeroOffsets,
    View.ld_unit_zero (S := S512x1152) zeroOffsets, View.ld_unit_zero (S := S1x1152) zeroOffsets]
  refine funext fun (y : S1280x512.Idx) => ?_
  obtain ⟨r, j, rfl⟩ : ∃ (r : Fin 1280) (j : Fin 512), y = ix2 r j := ⟨y 0, y 1, eq_ix2 y⟩
  have h : 1280 * t.val + r.val < 160000 := by have := pointBound t; have := r.isLt; omega
  refine (Pay0.pay3_apply (iblk0 V c 0 t) (iblk0 V c 1 t) (iblk0 V c 2 t) (iblk0 V c 3 t) (iblk0 V c 4 t) (iblk0 V c 5 t) (iblk0 V c 6 t) r j).trans ?_
  refine (netBlock V c t r h (firstCol j)).trans ?_
  rw [View.read_apply]
  show _ = subjMsgs V c (((cfg0.win 9).blk t).view.emb (ix2 r j : S1280x512.Idx))
  rw [subjMsgsAt t r j h]

/-- Row r of the predicate block, as a row of the array. -/
theorem predRow (c : Dev nD) (t : Fin cfg0.N) (r : Fin 1280) (h : 1280 * t.val + r.val < 160000) :
    rowOf (iblk0 V c 1 t : Vec Ideal S1280x256 .f32) r
      = rowOf (V c main_arg1 : S160000x256.Idx → EReal) ⟨1280 * t.val + r.val, h⟩ :=
  funext fun k => predBlock V c t r k h

/-- Point t writes back block t of the new predicate vectors. -/
theorem flushed10 (c : Dev nD) (t : Fin cfg0.N) :
    (dat0 V c).flushed 10 t = ((cfg0.win 10).blk t).view.read (Elt Ideal) (predVecs V c) := by
  show (cfg0.win 10).cut (grid0.coords t) ((dat0 V c).after 10 t) = _
  rw [after0_10]
  unfold out0_10
  rw [View.canon_unit_zero zeroOffsets]
  simp only [View.ld_unit_zero (S := S1280x128) zeroOffsets, View.ld_unit_zero (S := S1280x256) zeroOffsets,
    View.ld_unit_zero (S := S512x512) zeroOffsets, View.ld_unit_zero (S := S1x512) zeroOffsets,
    View.ld_unit_zero (S := S512x1152) zeroOffsets, View.ld_unit_zero (S := S1x1152) zeroOffsets,
    View.ld_unit_zero (S := S256x128) zeroOffsets, View.ld_unit_zero (S := S1x128) zeroOffsets]
  refine funext fun (y : S1280x128.Idx) => ?_
  obtain ⟨r, j, rfl⟩ : ∃ (r : Fin 1280) (j : Fin 128), y = ix2 r j := ⟨y 0, y 1, eq_ix2 y⟩
  have h : 1280 * t.val + r.val < 160000 := by have := pointBound t; have := r.isLt; omega
  refine (Pay0.pay1_apply (iblk0 V c 0 t) (iblk0 V c 1 t) (iblk0 V c 2 t) (iblk0 V c 3 t) (iblk0 V c 4 t) (iblk0 V c 5 t) (iblk0 V c 6 t) (iblk0 V c 7 t) (iblk0 V c 8 t) r j).trans ?_
  rw [netBlock V c t r h (midCol j), predRow V c t r h, wpBlock V c t, bpBlock V c t, View.read_apply]
  show _ = predVecs V c (((cfg0.win 10).blk t).view.emb (ix2 r j : S1280x128.Idx))
  rw [predVecsAt t r j h]

/-- Point t writes back block t of the object messages. -/
theorem flushed11 (c : Dev nD) (t : Fin cfg0.N) :
    (dat0 V c).flushed 11 t = ((cfg0.win 11).blk t).view.read (Elt Ideal) (objMsgs V c) := by
  show (cfg0.win 11).cut (grid0.coords t) ((dat0 V c).after 11 t) = _
  rw [after0_11]
  unfold out0_11
  rw [View.canon_unit_zero zeroOffsets]
  simp only [View.ld_unit_zero (S := S1280x128) zeroOffsets, View.ld_unit_zero (S := S1280x256) zeroOffsets,
    View.ld_unit_zero (S := S512x512) zeroOffsets, View.ld_unit_zero (S := S1x512) zeroOffsets,
    View.ld_unit_zero (S := S512x1152) zeroOffsets, View.ld_unit_zero (S := S1x1152) zeroOffsets]
  refine funext fun (y : S1280x512.Idx) => ?_
  obtain ⟨r, j, rfl⟩ : ∃ (r : Fin 1280) (j : Fin 512), y = ix2 r j := ⟨y 0, y 1, eq_ix2 y⟩
  have h : 1280 * t.val + r.val < 160000 := by have := pointBound t; have := r.isLt; omega
  refine (Pay0.pay5_apply (iblk0 V c 0 t) (iblk0 V c 1 t) (iblk0 V c 2 t) (iblk0 V c 3 t) (iblk0 V c 4 t) (iblk0 V c 5 t) (iblk0 V c 6 t) r j).trans ?_
  refine (netBlock V c t r h (lastCol j)).trans ?_
  rw [View.read_apply]
  show _ = objMsgs V c (((cfg0.win 11).blk t).view.emb (ix2 r j : S1280x512.Idx))
  rw [objMsgsAt t r j h]

/-! ## The blocks tile the outputs -/

/-- An entry of the subject messages is in point t's block iff each coordinate is in the block's range. -/
theorem mem_blk9 (t : Fin cfg0.N) (i : S160000x512.Idx) :
    i ∈ ((cfg0.win 9).blk t).view.set ↔ ∀ a : Fin 2, win0_9.index t a * S1280x512.size a ≤ (i a).val
      ∧ (i a).val < win0_9.index t a * S1280x512.size a + S1280x512.size a := by
  show i ∈ ((View.whole main_v12_0).slice (win0_9.rect t)).set ↔ _
  rw [View.set_slice_whole, Rect.mem_set_unit]
  exact Iff.rfl

/-- The same for the new predicate vectors. -/
theorem mem_blk10 (t : Fin cfg0.N) (i : S160000x128.Idx) :
    i ∈ ((cfg0.win 10).blk t).view.set ↔ ∀ a : Fin 2, win0_10.index t a * S1280x128.size a ≤ (i a).val
      ∧ (i a).val < win0_10.index t a * S1280x128.size a + S1280x128.size a := by
  show i ∈ ((View.whole main_v12_1).slice (win0_10.rect t)).set ↔ _
  rw [View.set_slice_whole, Rect.mem_set_unit]
  exact Iff.rfl

/-- The same for the object messages. -/
theorem mem_blk11 (t : Fin cfg0.N) (i : S160000x512.Idx) :
    i ∈ ((cfg0.win 11).blk t).view.set ↔ ∀ a : Fin 2, win0_11.index t a * S1280x512.size a ≤ (i a).val
      ∧ (i a).val < win0_11.index t a * S1280x512.size a + S1280x512.size a := by
  show i ∈ ((View.whole main_v12_2).slice (win0_11.rect t)).set ↔ _
  rw [View.set_slice_whole, Rect.mem_set_unit]
  exact Iff.rfl

/-- The point whose rows contain row T: T / 1280. -/
theorem pointOfRow (T : Nat) (hT : T < 160000) : ∃ t : Fin cfg0.N, t.val = T / 1280 := by
  have hN : cfg0.N = 125 := N_0
  exact ⟨⟨T / 1280, by omega⟩, rfl⟩

/-- Every entry of the subject messages is in the block of the point T / 1280, which writes it back. -/
theorem cover9 (i : S160000x512.Idx) :
    ∃ t : Fin cfg0.N, (cfg0.win 9).flush t = true ∧ i ∈ ((cfg0.win 9).blk t).view.set := by
  have hi0 : (i 0).val < 160000 := (i 0).isLt
  have hi1 : (i 1).val < 512 := (i 1).isLt
  obtain ⟨t, ht⟩ := pointOfRow (i 0).val hi0
  obtain ⟨-, -, -, -, -, -, e0, e1, -⟩ := rowBlocks t
  refine ⟨t, flush0_9 t, ?_⟩
  rw [mem_blk9]
  intro a
  match a with
  | ⟨0, _⟩ => show win0_9.index t (0 : Fin 2) * 1280 ≤ (i 0).val ∧ (i 0).val < win0_9.index t (0 : Fin 2) * 1280 + 1280; omega
  | ⟨1, _⟩ => show win0_9.index t (1 : Fin 2) * 512 ≤ (i 1).val ∧ (i 1).val < win0_9.index t (1 : Fin 2) * 512 + 512; omega

/-- The same for the new predicate vectors. -/
theorem cover10 (i : S160000x128.Idx) :
    ∃ t : Fin cfg0.N, (cfg0.win 10).flush t = true ∧ i ∈ ((cfg0.win 10).blk t).view.set := by
  have hi0 : (i 0).val < 160000 := (i 0).isLt
  have hi1 : (i 1).val < 128 := (i 1).isLt
  obtain ⟨t, ht⟩ := pointOfRow (i 0).val hi0
  obtain ⟨-, -, -, -, -, -, -, -, e0, e1, -⟩ := rowBlocks t
  refine ⟨t, flush0_10 t, ?_⟩
  rw [mem_blk10]
  intro a
  match a with
  | ⟨0, _⟩ => show win0_10.index t (0 : Fin 2) * 1280 ≤ (i 0).val ∧ (i 0).val < win0_10.index t (0 : Fin 2) * 1280 + 1280; omega
  | ⟨1, _⟩ => show win0_10.index t (1 : Fin 2) * 128 ≤ (i 1).val ∧ (i 1).val < win0_10.index t (1 : Fin 2) * 128 + 128; omega

/-- The same for the object messages. -/
theorem cover11 (i : S160000x512.Idx) :
    ∃ t : Fin cfg0.N, (cfg0.win 11).flush t = true ∧ i ∈ ((cfg0.win 11).blk t).view.set := by
  have hi0 : (i 0).val < 160000 := (i 0).isLt
  have hi1 : (i 1).val < 512 := (i 1).isLt
  obtain ⟨t, ht⟩ := pointOfRow (i 0).val hi0
  obtain ⟨-, -, -, -, -, -, -, -, -, -, e0, e1⟩ := rowBlocks t
  refine ⟨t, flush0_11 t, ?_⟩
  rw [mem_blk11]
  intro a
  match a with
  | ⟨0, _⟩ => show win0_11.index t (0 : Fin 2) * 1280 ≤ (i 0).val ∧ (i 0).val < win0_11.index t (0 : Fin 2) * 1280 + 1280; omega
  | ⟨1, _⟩ => show win0_11.index t (1 : Fin 2) * 512 ≤ (i 1).val ∧ (i 1).val < win0_11.index t (1 : Fin 2) * 512 + 512; omega

/-! ## The arrays after the run -/

/-- The blocks written back are blocks of one function and tile the array, so the array ends holding it. -/
theorem final9 (c : Dev nD) : (dat0 V c).arrAt 9 cfg0.N = subjMsgs V c :=
  (dat0 V c).arrAt_eq_of_cover 9 (subjMsgs V c) (fun t _ => flushed9 V c t) cover9

/-- The same for the new predicate vectors. -/
theorem final10 (c : Dev nD) : (dat0 V c).arrAt 10 cfg0.N = predVecs V c :=
  (dat0 V c).arrAt_eq_of_cover 10 (predVecs V c) (fun t _ => flushed10 V c t) cover10

/-- The same for the object messages. -/
theorem final11 (c : Dev nD) : (dat0 V c).arrAt 11 cfg0.N = objMsgs V c :=
  (dat0 V c).arrAt_eq_of_cover 11 (objMsgs V c) (fun t _ => flushed11 V c t) cover11

/-- The subject messages: row T is the first band of the first network on row T of the operands. -/
theorem final9_apply (c : Dev nD) (T : Fin 160000) (j : Fin 512) :
    (dat0 (F := Ideal) V c).arrAt 9 cfg0.N (ix2 T j)
      = net1 (rowOf (V c main_v4 : S160000x128.Idx → EReal) T) (rowOf (V c main_arg1 : S160000x256.Idx → EReal) T)
          (rowOf (V c main_v5 : S160000x128.Idx → EReal) T) (matOf (V c main_v6 : S512x512.Idx → EReal))
          (rowOf (V c main_v9 : S1x512.Idx → EReal) 0) (matOf (V c main_v7 : S512x1152.Idx → EReal))
          (rowOf (V c main_v10 : S1x1152.Idx → EReal) 0) (firstCol j) :=
  congrFun (final9 V c) (ix2 T j)

/-- The new predicate vectors: the middle band plus the residual layer of the predicate row, added whole. -/
theorem final10_apply (c : Dev nD) (T : Fin 160000) (j : Fin 128) :
    (dat0 (F := Ideal) V c).arrAt 10 cfg0.N (ix2 T j)
      = predOutWhole
          (net1 (rowOf (V c main_v4 : S160000x128.Idx → EReal) T) (rowOf (V c main_arg1 : S160000x256.Idx → EReal) T)
            (rowOf (V c main_v5 : S160000x128.Idx → EReal) T) (matOf (V c main_v6 : S512x512.Idx → EReal))
            (rowOf (V c main_v9 : S1x512.Idx → EReal) 0) (matOf (V c main_v7 : S512x1152.Idx → EReal))
            (rowOf (V c main_v10 : S1x1152.Idx → EReal) 0) (midCol j))
          (rowOf (V c main_arg1 : S160000x256.Idx → EReal) T) (matOf (V c main_v8 : S256x128.Idx → EReal))
          (rowOf (V c main_v11 : S1x128.Idx → EReal) 0) j :=
  congrFun (final10 V c) (ix2 T j)

/-- The object messages: the last band. -/
theorem final11_apply (c : Dev nD) (T : Fin 160000) (j : Fin 512) :
    (dat0 (F := Ideal) V c).arrAt 11 cfg0.N (ix2 T j)
      = net1 (rowOf (V c main_v4 : S160000x128.Idx → EReal) T) (rowOf (V c main_arg1 : S160000x256.Idx → EReal) T)
          (rowOf (V c main_v5 : S160000x128.Idx → EReal) T) (matOf (V c main_v6 : S512x512.Idx → EReal))
          (rowOf (V c main_v9 : S1x512.Idx → EReal) 0) (matOf (V c main_v7 : S512x1152.Idx → EReal))
          (rowOf (V c main_v10 : S1x1152.Idx → EReal) 0) (lastCol j) :=
  congrFun (final11 V c) (ix2 T j)

end Cert.KernelIdeal.Value0

end
-- ==== Proof.Pay1.lean ====
/-
  The second kernel's arithmetic on one block of 2000 nodes, read at an entry.

  Row r of the result is the second network's entry on row r of the pooled block, plus the residual affine layer
  of row r of the node block, added whole.
-/
import proofs.«414288_j72103910965765_1_alg».proof.Proof.Gen.KernelIdeal.Skeleton
import proofs.«414288_j72103910965765_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay1

open Cert.KernelIdeal Cert.KernelIdeal.Gen Idealize.ShloMosaic Idealize.ShloMosaic.ValueIdx Cert.Spec

/-! ## The operand indices of the first layer's product (2000×512 by 512×512)

At the output entry `i` and the contraction index `q` the left operand is read at (row of `i`, `q`) and the
right operand at (`q`, column of `i`). -/

/-- The left operand's row is the output's row. -/
theorem lhs_first_row (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
/-- The left operand's column is the contraction index. -/
theorem lhs_first_col (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
/-- The right operand's row is the contraction index. -/
theorem rhs_first_row (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
/-- The right operand's column is the output's column. -/
theorem rhs_first_col (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- Entry (r, n) of the first layer's product (2000×512 by 512×512) into the zero accumulator is Σ_k x r k · w k n. -/
theorem prod_first_apply (x : FVec Ideal S2000x512 .bf16) (w : FVec Ideal S512x512 .bf16) (r : Fin 2000) (n : Fin 512) :
    matmul (F := Ideal) dot_S2000x512_S512x512_S2000x512_1_0_0_1_n_n none x w (constant (F := Ideal) S2000x512 .f32 0x00000000#32) (ix2 r n)
      = ∑ k : Fin 512, x (ix2 r k) * w (ix2 k n) := by
  simp only [matmul]
  rw [Ideal.matmul_constant_zero_apply, ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx (ix2 r n) ((ValueIdx.contrEquiv1 dot_S2000x512_S512x512_S2000x512_1_0_0_1_n_n 512 rfl rfl).symm k) = ix2 r k := funext fun a => Fin.ext (by
    match a with
    | ⟨0, _⟩ => exact lhs_first_row _ _
    | ⟨1, _⟩ => exact (lhs_first_col _ _).trans hk)
  have er : dot_S2000x512_S512x512_S2000x512_1_0_0_1_n_n.rhsIdx (ix2 r n) ((ValueIdx.contrEquiv1 dot_S2000x512_S512x512_S2000x512_1_0_0_1_n_n 512 rfl rfl).symm k) = ix2 k n := funext fun a => Fin.ext (by
    match a with
    | ⟨0, _⟩ => exact (rhs_first_row _ _).trans hk
    | ⟨1, _⟩ => exact rhs_first_col _ _)
  rw [el, er]

/-! ## The operand indices of the second layer's product (2000×512 by 512×128)

At the output entry `i` and the contraction index `q` the left operand is read at (row of `i`, `q`) and the
right operand at (`q`, column of `i`). -/

/-- The left operand's row is the output's row. -/
theorem lhs_second_row (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- The left operand's column is the contraction index. -/
theorem lhs_second_col (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
/-- The right operand's row is the contraction index. -/
theorem rhs_second_row (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
/-- The right operand's column is the output's column. -/
theorem rhs_second_col (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Entry (r, n) of the second layer's product (2000×512 by 512×128) into the zero accumulator is Σ_k x r k · w k n. -/
theorem prod_second_apply (x : FVec Ideal S2000x512 .bf16) (w : FVec Ideal S512x128 .bf16) (r : Fin 2000) (n : Fin 128) :
    matmul (F := Ideal) dot_S2000x512_S512x128_S2000x128_1_0_0_1_n_n none x w (constant (F := Ideal) S2000x128 .f32 0x00000000#32) (ix2 r n)
      = ∑ k : Fin 512, x (ix2 r k) * w (ix2 k n) := by
  simp only [matmul]
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx (ix2 r n) ((ValueIdx.contrEquiv1 dot_S2000x512_S512x128_S2000x128_1_0_0_1_n_n 512 rfl rfl).symm k) = ix2 r k := funext fun a => Fin.ext (by
    match a with
    | ⟨0, _⟩ => exact lhs_second_row _ _
    | ⟨1, _⟩ => exact (lhs_second_col _ _).trans hk)
  have er : dot_S2000x512_S512x128_S2000x128_1_0_0_1_n_n.rhsIdx (ix2 r n) ((ValueIdx.contrEquiv1 dot_S2000x512_S512x128_S2000x128_1_0_0_1_n_n 512 rfl rfl).symm k) = ix2 k n := funext fun a => Fin.ext (by
    match a with
    | ⟨0, _⟩ => exact (rhs_second_row _ _).trans hk
    | ⟨1, _⟩ => exact rhs_second_col _ _)
  rw [el, er]

/-! ## The operand indices of the residual layer's product (2000×128 by 128×128)

At the output entry `i` and the contraction index `q` the left operand is read at (row of `i`, `q`) and the
right operand at (`q`, column of `i`). -/

/-- The left operand's row is the output's row. -/
theorem lhs_resid_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column is the contraction index. -/
theorem lhs_resid_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row is the contraction index. -/
theorem rhs_resid_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column is the output's column. -/
theorem rhs_resid_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, n) of the residual layer's product (2000×128 by 128×128) into the zero accumulator is Σ_k x r k · w k n. -/
theorem prod_resid_apply (x : FVec Ideal S2000x128 .bf16) (w : FVec Ideal S128x128 .bf16) (r : Fin 2000) (n : Fin 128) :
    matmul (F := Ideal) dot_S2000x128_S128x128_S2000x128_1_0_0_1_n_n none x w (constant (F := Ideal) S2000x128 .f32 0x00000000#32) (ix2 r n)
      = ∑ k : Fin 128, x (ix2 r k) * w (ix2 k n) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r n) ((ValueIdx.contrEquiv1 dot_S2000x128_S128x128_S2000x128_1_0_0_1_n_n 128 rfl rfl).symm k) = ix2 r k := funext fun a => Fin.ext (by
    match a with
    | ⟨0, _⟩ => exact lhs_resid_row _ _
    | ⟨1, _⟩ => exact (lhs_resid_col _ _).trans hk)
  have er : dot_S2000x128_S128x128_S2000x128_1_0_0_1_n_n.rhsIdx (ix2 r n) ((ValueIdx.contrEquiv1 dot_S2000x128_S128x128_S2000x128_1_0_0_1_n_n 128 rfl rfl).symm k) = ix2 k n := funext fun a => Fin.ext (by
    match a with
    | ⟨0, _⟩ => exact (rhs_resid_row _ _).trans hk
    | ⟨1, _⟩ => exact rhs_resid_col _ _)
  rw [el, er]

/-! ## The block's arithmetic at an entry

The three products are sums over the contraction index; a format change is the identity on extended reals; a bias
row broadcast down the 2000 rows reads the bias at the column; the rectifier is the maximum with the zero word's
value. -/

theorem pay1_apply (v0 : Vec Ideal S2000x512 .f32) (v3 : Vec Ideal S512x512 .bf16) (v6 : Vec Ideal S1x512 .f32)
    (v13 : Vec Ideal S512x128 .bf16) (v16 : Vec Ideal S1x128 .f32) (v22 : Vec Ideal S2000x128 .f32)
    (v24 : Vec Ideal S128x128 .bf16) (v27 : Vec Ideal S1x128 .f32) (r : Fin 2000) (j : Fin 128) :
    k1_pay1 (F := Ideal) v0 v3 v6 v13 v16 v22 v24 v27 (ix2 r j)
      = objOutWhole (net2 (rowOf v0 r) (matOf v3) (rowOf v6 0) (matOf v13) (rowOf v16 0) j)
          (rowOf v22 r) (matOf v24) (rowOf v27 0) j := by
  unfold k1_pay1
  simp only [shapeCast_self, addf_apply, maximumf_apply, broadcast_apply, truncf_apply, prod_first_apply,
    prod_second_apply, prod_resid_apply, broadcastTo_1b_ab_apply]
  rfl

end Cert.KernelIdeal.Pay1

end
-- ==== Proof.Value1.lean ====
/-
  The second kernel's output array after its 5 grid points, read at an entry.

  Point t stages rows 2000·t … 2000·t + 1999 of the pooled array and of the node array, and writes back the same rows
  of the output; the blocks tile it (the point that covers row T is T / 2000).
-/
import proofs.«414288_j72103910965765_1_alg».proof.Proof.Gen.KernelIdeal.Frame
import proofs.«414288_j72103910965765_1_alg».proof.Proof.Pay1

set_option maxRecDepth 16384

noncomputable section

namespace Cert.KernelIdeal.Value1

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx Cert.Spec

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## Where each block sits in its array

The pooled rows, the node rows and the output rows move with the grid point: point t has block index (t, 0). Each of
the six weight and bias arrays is one block, at block index (0, 0) at every point. Decided over the 5 points. -/

theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-! ## Each block read at an entry is its array read at an entry

A block's entry sits in the array, on each axis, at the block index times the block's size plus its own coordinate. -/

/-- Entry (p, q) of point t's block of the pooled array is entry (2000·t + p, q) of the array. -/
theorem pooled_block_apply (c : Dev nD) (t : Fin cfg1.N) (p : Fin 2000) (q : Fin 512) (i : S10000x512.Idx)
    (h0 : (i 0).val = 2000 * t.val + p.val) (h1 : (i 1).val = q.val) :
    (iblk1 V c 0 t : S2000x512.Idx → EReal) (ix2 p q) = (V c main_v48 : S10000x512.Idx → EReal) i := by
  have e := block_index t
  show (V c main_v48 : S10000x512.Idx → EReal) (((cfg1.win 0).blk t).view.emb (ix2 p q)) = _
  refine congrArg (V c main_v48 : S10000x512.Idx → EReal) (funext fun a => Fin.ext ?_)
  match a with
  | ⟨0, _⟩ => show win1_0.index t (0 : Fin 2) * 2000 + 1 * p.val = (i 0).val; omega
  | ⟨1, _⟩ => show win1_0.index t (1 : Fin 2) * 512 + 1 * q.val = (i 1).val; omega

/-- Entry (p, q) of point t's block of the node array is entry (2000·t + p, q) of the array. -/
theorem node_block_apply (c : Dev nD) (t : Fin cfg1.N) (p : Fin 2000) (q : Fin 128) (i : S10000x128.Idx)
    (h0 : (i 0).val = 2000 * t.val + p.val) (h1 : (i 1).val = q.val) :
    (iblk1 V c 1 t : S2000x128.Idx → EReal) (ix2 p q) = (V c main_arg0 : S10000x128.Idx → EReal) i := by
  have e := block_index t
  show (V c main_arg0 : S10000x128.Idx → EReal) (((cfg1.win 1).blk t).view.emb (ix2 p q)) = _
  refine congrArg (V c main_arg0 : S10000x128.Idx → EReal) (funext fun a => Fin.ext ?_)
  match a with
  | ⟨0, _⟩ => show win1_1.index t (0 : Fin 2) * 2000 + 1 * p.val = (i 0).val; omega
  | ⟨1, _⟩ => show win1_1.index t (1 : Fin 2) * 128 + 1 * q.val = (i 1).val; omega

/-- The weight1 array's one block is the array. -/
theorem weight1_block_apply (c : Dev nD) (t : Fin cfg1.N) (p : Fin 512) (q : Fin 512) (i : S512x512.Idx)
    (h0 : (i 0).val = p.val) (h1 : (i 1).val = q.val) :
    (iblk1 V c 2 t : S512x512.Idx → EReal) (ix2 p q) = (V c main_v49 : S512x512.Idx → EReal) i := by
  have e := block_index t
  show (V c main_v49 : S512x512.Idx → EReal) (((cfg1.win 2).blk t).view.emb (ix2 p q)) = _
  refine congrArg (V c main_v49 : S512x512.Idx → EReal) (funext fun a => Fin.ext ?_)
  match a with
  | ⟨0, _⟩ => show win1_2.index t (0 : Fin 2) * 512 + 1 * p.val = (i 0).val; omega
  | ⟨1, _⟩ => show win1_2.index t (1 : Fin 2) * 512 + 1 * q.val = (i 1).val; omega

/-- The bias1 array's one block is the array. -/
theorem bias1_block_apply (c : Dev nD) (t : Fin cfg1.N) (p : Fin 1) (q : Fin 512) (i : S1x512.Idx)
    (h0 : (i 0).val = p.val) (h1 : (i 1).val = q.val) :
    (iblk1 V c 3 t : S1x512.Idx → EReal) (ix2 p q) = (V c main_v52 : S1x512.Idx → EReal) i := by
  have e := block_index t
  show (V c main_v52 : S1x512.Idx → EReal) (((cfg1.win 3).blk t).view.emb (ix2 p q)) = _
  refine congrArg (V c main_v52 : S1x512.Idx → EReal) (funext fun a => Fin.ext ?_)
  match a with
  | ⟨0, _⟩ => show win1_3.index t (0 : Fin 2) * 1 + 1 * p.val = (i 0).val; omega
  | ⟨1, _⟩ => show win1_3.index t (1 : Fin 2) * 512 + 1 * q.val = (i 1).val; omega

/-- The weight2 array's one block is the array. -/
theorem weight2_block_apply (c : Dev nD) (t : Fin cfg1.N) (p : Fin 512) (q : Fin 128) (i : S512x128.Idx)
    (h0 : (i 0).val = p.val) (h1 : (i 1).val = q.val) :
    (iblk1 V c 4 t : S512x128.Idx → EReal) (ix2 p q) = (V c main_v50 : S512x128.Idx → EReal) i := by
  have e := block_index t
  show (V c main_v50 : S512x128.Idx → EReal) (((cfg1.win 4).blk t).view.emb (ix2 p q)) = _
  refine congrArg (V c main_v50 : S512x128.Idx → EReal) (funext fun a => Fin.ext ?_)
  match a with
  | ⟨0, _⟩ => show win1_4.index t (0 : Fin 2) * 512 + 1 * p.val = (i 0).val; omega
  | ⟨1, _⟩ => show win1_4.index t (1 : Fin 2) * 128 + 1 * q.val = (i 1).val; omega

/-- The bias2 array's one block is the array. -/
theorem bias2_block_apply (c : Dev nD) (t : Fin cfg1.N) (p : Fin 1) (q : Fin 128) (i : S1x128.Idx)
    (h0 : (i 0).val = p.val) (h1 : (i 1).val = q.val) :
    (iblk1 V c 5 t : S1x128.Idx → EReal) (ix2 p q) = (V c main_v53 : S1x128.Idx → EReal) i := by
  have e := block_index t
  show (V c main_v53 : S1x128.Idx → EReal) (((cfg1.win 5).blk t).view.emb (ix2 p q)) = _
  refine congrArg (V c main_v53 : S1x128.Idx → EReal) (funext fun a => Fin.ext ?_)
  match a with
  | ⟨0, _⟩ => show win1_5.index t (0 : Fin 2) * 1 + 1 * p.val = (i 0).val; omega
  | ⟨1, _⟩ => show win1_5.index t (1 : Fin 2) * 128 + 1 * q.val = (i 1).val; omega

/-- The weightR array's one block is the array. -/
theorem weightR_block_apply (c : Dev nD) (t : Fin cfg1.N) (p : Fin 128) (q : Fin 128) (i : S128x128.Idx)
    (h0 : (i 0).val = p.val) (h1 : (i 1).val = q.val) :
    (iblk1 V c 6 t : S128x128.Idx → EReal) (ix2 p q) = (V c main_v51 : S128x128.Idx → EReal) i := by
  have e := block_index t
  show (V c main_v51 : S128x128.Idx → EReal) (((cfg1.win 6).blk t).view.emb (ix2 p q)) = _
  refine congrArg (V c main_v51 : S128x128.Idx → EReal) (funext fun a => Fin.ext ?_)
  match a with
  | ⟨0, _⟩ => show win1_6.index t (0 : Fin 2) * 128 + 1 * p.val = (i 0).val; omega
  | ⟨1, _⟩ => show win1_6.index t (1 : Fin 2) * 128 + 1 * q.val = (i 1).val; omega

/-- The biasR array's one block is the array. -/
theorem biasR_block_apply (c : Dev nD) (t : Fin cfg1.N) (p : Fin 1) (q : Fin 128) (i : S1x128.Idx)
    (h0 : (i 0).val = p.val) (h1 : (i 1).val = q.val) :
    (iblk1 V c 7 t : S1x128.Idx → EReal) (ix2 p q) = (V c main_v54 : S1x128.Idx → EReal) i := by
  have e := block_index t
  show (V c main_v54 : S1x128.Idx → EReal) (((cfg1.win 7).blk t).view.emb (ix2 p q)) = _
  refine congrArg (V c main_v54 : S1x128.Idx → EReal) (funext fun a => Fin.ext ?_)
  match a with
  | ⟨0, _⟩ => show win1_7.index t (0 : Fin 2) * 1 + 1 * p.val = (i 0).val; omega
  | ⟨1, _⟩ => show win1_7.index t (1 : Fin 2) * 128 + 1 * q.val = (i 1).val; omega

/-! ## What the output array ends holding

Entry (T, j): the second network on row T of the pooled array plus the residual layer of row T of the node array. -/

/-- The new node vector's entry (T, j) as a function of the arrays the region finds. -/
def nodeOut (c : Dev nD) (T : Fin 10000) (j : Fin 128) : EReal :=
  objOutWhole
    (net2 (rowOf (V c main_v48 : S10000x512.Idx → EReal) T) (matOf (V c main_v49 : S512x512.Idx → EReal))
      (rowOf (V c main_v52 : S1x512.Idx → EReal) 0) (matOf (V c main_v50 : S512x128.Idx → EReal))
      (rowOf (V c main_v53 : S1x128.Idx → EReal) 0) j)
    (rowOf (V c main_arg0 : S10000x128.Idx → EReal) T) (matOf (V c main_v51 : S128x128.Idx → EReal))
    (rowOf (V c main_v54 : S1x128.Idx → EReal) 0) j

/-- The whole output array, index by index. -/
def G8 (c : Dev nD) : S10000x128.Idx → EReal := fun i => nodeOut V c ⟨(i 0).val, (i 0).isLt⟩ ⟨(i 1).val, (i 1).isLt⟩

/-- What grid point t writes back is block t of that array: rows 2000·t … 2000·t + 1999. -/
theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8]
  unfold out1_8
  rw [View.canon_unit_zero hz]
  simp only [View.ld_unit_zero (S := S2000x512) hz, View.ld_unit_zero (S := S2000x128) hz, View.ld_unit_zero (S := S512x512) hz,
    View.ld_unit_zero (S := S1x512) hz, View.ld_unit_zero (S := S512x128) hz, View.ld_unit_zero (S := S1x128) hz,
    View.ld_unit_zero (S := S128x128) hz]
  funext y
  obtain ⟨r, j, rfl⟩ : ∃ (r : Fin 2000) (j : Fin 128), y = ix2 r j := ⟨y 0, y 1, eq_ix2 y⟩
  have e := block_index t
  have hN : cfg1.N = 5 := N_1
  have ht : t.val < 5 := hN ▸ t.isLt
  show k1_pay1 (F := Ideal) (iblk1 V c 0 t) (iblk1 V c 2 t) (iblk1 V c 3 t) (iblk1 V c 4 t) (iblk1 V c 5 t) (iblk1 V c 1 t)
      (iblk1 V c 6 t) (iblk1 V c 7 t) (ix2 r j) = G8 V c (((cfg1.win 8).blk t).view.emb (ix2 r j))
  refine (Pay1.pay1_apply (iblk1 V c 0 t) (iblk1 V c 2 t) (iblk1 V c 3 t) (iblk1 V c 4 t) (iblk1 V c 5 t) (iblk1 V c 1 t)
      (iblk1 V c 6 t) (iblk1 V c 7 t) r j).trans ?_
  have hr : 2000 * t.val + r.val < 10000 := by omega
  -- the entry's place in the output array: row 2000·t + r, column j
  have hemb : (((cfg1.win 8).blk t).view.emb (ix2 r j) : S10000x128.Idx) = ix2 (⟨2000 * t.val + r.val, hr⟩ : Fin 10000) j :=
    funext fun a => Fin.ext (by
      match a with
      | ⟨0, _⟩ => show win1_8.index t (0 : Fin 2) * 2000 + 1 * r.val = 2000 * t.val + r.val; omega
      | ⟨1, _⟩ => show win1_8.index t (1 : Fin 2) * 128 + 1 * j.val = j.val; omega)
  refine Eq.trans ?_ (congrArg (G8 V c) hemb).symm
  show _ = nodeOut V c ⟨2000 * t.val + r.val, hr⟩ j
  unfold nodeOut
  -- each block row is the array's row; each weight or bias block is its array
  have e0 : rowOf (iblk1 V c 0 t : S2000x512.Idx → EReal) r = rowOf (V c main_v48 : S10000x512.Idx → EReal) ⟨2000 * t.val + r.val, hr⟩ :=
    funext fun k => pooled_block_apply V c t r k (ix2 (⟨2000 * t.val + r.val, hr⟩ : Fin 10000) k) rfl rfl
  have e1 : rowOf (iblk1 V c 1 t : S2000x128.Idx → EReal) r = rowOf (V c main_arg0 : S10000x128.Idx → EReal) ⟨2000 * t.val + r.val, hr⟩ :=
    funext fun k => node_block_apply V c t r k (ix2 (⟨2000 * t.val + r.val, hr⟩ : Fin 10000) k) rfl rfl
  have e2 : matOf (iblk1 V c 2 t : S512x512.Idx → EReal) = matOf (V c main_v49 : S512x512.Idx → EReal) :=
    funext fun k => funext fun n => weight1_block_apply V c t k n (ix2 k n) rfl rfl
  have e3 : rowOf (iblk1 V c 3 t : S1x512.Idx → EReal) 0 = rowOf (V c main_v52 : S1x512.Idx → EReal) 0 :=
    funext fun n => bias1_block_apply V c t 0 n (ix2 0 n) rfl rfl
  have e4 : matOf (iblk1 V c 4 t : S512x128.Idx → EReal) = matOf (V c main_v50 : S512x128.Idx → EReal) :=
    funext fun k => funext fun n => weight2_block_apply V c t k n (ix2 k n) rfl rfl
  have e5 : rowOf (iblk1 V c 5 t : S1x128.Idx → EReal) 0 = rowOf (V c main_v53 : S1x128.Idx → EReal) 0 :=
    funext fun n => bias2_block_apply V c t 0 n (ix2 0 n) rfl rfl
  have e6 : matOf (iblk1 V c 6 t : S128x128.Idx → EReal) = matOf (V c main_v51 : S128x128.Idx → EReal) :=
    funext fun k => funext fun n => weightR_block_apply V c t k n (ix2 k n) rfl rfl
  have e7 : rowOf (iblk1 V c 7 t : S1x128.Idx → EReal) 0 = rowOf (V c main_v54 : S1x128.Idx → EReal) 0 :=
    funext fun n => biasR_block_apply V c t 0 n (ix2 0 n) rfl rfl
  rw [e0, e1, e2, e3, e4, e5, e6, e7]

/-- An index of the output array is in point t's block iff each coordinate is in the block's range on its axis. -/
theorem mem_blk8 (t : Fin cfg1.N) (i : S10000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v55).slice (win1_8.rect t)).set ↔ _
  rw [View.set_slice_whole, Rect.mem_set_unit]
  exact Iff.rfl

/-- The 5 blocks of 2000 rows tile the 10000 rows: the point that covers row T is T / 2000. -/
theorem cover8 (i : S10000x128.Idx) :
    ∃ t : Fin cfg1.N, (cfg1.win 8).flush t = true ∧ i ∈ ((cfg1.win 8).blk t).view.set := by
  have hN : cfg1.N = 5 := N_1
  have hi0 : (i 0).val < 10000 := (i 0).isLt
  have hi1 : (i 1).val < 128 := (i 1).isLt
  let t : Fin cfg1.N := ⟨(i 0).val / 2000, by rw [hN]; omega⟩
  have htv : t.val = (i 0).val / 2000 := rfl
  have e := block_index t
  refine ⟨t, flush1_8 t, ?_⟩
  rw [mem_blk8]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-- So the output array ends holding that function at every index. -/
theorem final8 (c : Dev nD) : (dat1 V c).arrAt 8 cfg1.N = G8 V c :=
  (dat1 V c).arrAt_eq_of_cover 8 (G8 V c) (fun t _ => flushed8_eq V c t) cover8

/-- The new node vectors: the second network on the pooled row plus the residual layer of the node's row, added whole. -/
theorem final8_apply (c : Dev nD) (T : Fin 10000) (j : Fin 128) :
    (dat1 (F := Ideal) V c).arrAt 8 cfg1.N (ix2 T j)
      = objOutWhole
          (net2 (rowOf (V c main_v48 : S10000x512.Idx → EReal) T) (matOf (V c main_v49 : S512x512.Idx → EReal))
            (rowOf (V c main_v52 : S1x512.Idx → EReal) 0) (matOf (V c main_v50 : S512x128.Idx → EReal))
            (rowOf (V c main_v53 : S1x128.Idx → EReal) 0) j)
          (rowOf (V c main_arg0 : S10000x128.Idx → EReal) T) (matOf (V c main_v51 : S128x128.Idx → EReal))
          (rowOf (V c main_v54 : S1x128.Idx → EReal) 0) j := by
  exact congrFun (final8 V c) (ix2 T j)

end Cert.KernelIdeal.Value1

end
-- ==== Proof.RefValue.lean ====
/-
  The reference program's stages, read at an entry.

  The gathered subject and object rows are carried as they are (which table row a triple reads depends on the index
  words, and nothing here needs to know). Row T of the concatenation is [subject row T | predicate row T | object row T];
  a host matrix product at (T, n) is the sum over k of the left operand at (T, k) times the right at (k, n); a bias is
  broadcast along the rows. So every stage after the concatenation is the row function of the specification on row T.
-/
import proofs.«414288_j72103910965765_1_alg».proof.Proof.Gen.ReferenceIdeal.Run
import proofs.«414288_j72103910965765_1_alg».proof.Proof.Gen.ReferenceIdeal.Read
import proofs.«414288_j72103910965765_1_alg».proof.Proof.Spec
import Idealize.ShloMosaic.Lib.Pipeline.Value
import Idealize.ShloMosaic.Lib.ValueIdx
import Idealize.ShloMosaic.PureOps.Ideal.Laws

noncomputable section

namespace Cert.RefValue

open Cert.ReferenceIdeal Cert.ReferenceIdeal.Gen Cert.ReferenceIdeal.Read
open Idealize.ShloMosaic Idealize.ShloMosaic.ValueIdx Cert.Spec

/-- Row T of the concatenation is [subject row | predicate row | object row]. -/
private theorem v18_row (x0 : (⟨S10000x128, .f32⟩ : BufTy).Contents (Elt Ideal)) (x1 : (⟨S160000x256, .f32⟩ : BufTy).Contents (Elt Ideal)) (x2 : (⟨S160000x2, .i32⟩ : BufTy).Contents (Elt Ideal))
    (T : Fin 160000) (c : Fin 512) :
    val_main_v18 (F := Ideal) x0 x1 x2 (ix2 T c)
      = cat3 (rowOf (val_main_v10 (F := Ideal) x0 x2) T) (rowOf x1 T) (rowOf (val_main_v17 (F := Ideal) x0 x2) T) c := by
  unfold val_main_v18
  generalize val_main_v10 (F := Ideal) x0 x2 = g1
  generalize val_main_v17 (F := Ideal) x0 x2 = g2
  unfold cat3
  by_cases h1 : c.val < 128
  · rw [dif_pos h1]
    exact concatenate_apply_piece (1 : Fin S160000x512.rank) [⟨S160000x128, g1⟩, ⟨S160000x256, x1⟩, ⟨S160000x128, g2⟩] concatenates_S160000x128_S160000x256_S160000x128_S160000x512_d1
      (ix2 T c) 0 (by show 0 < 3; omega) S160000x128 g1 rfl rfl 0 rfl (ix2 T ⟨c.val, h1⟩)
      (fun b hb => by
        match b with
        | ⟨0, _⟩ => rfl
        | ⟨1, _⟩ => exact absurd rfl hb)
      (by show 0 + c.val = c.val; omega)
  · rw [dif_neg h1]
    by_cases h2 : c.val < 384
    · rw [dif_pos h2]
      exact concatenate_apply_piece (1 : Fin S160000x512.rank) [⟨S160000x128, g1⟩, ⟨S160000x256, x1⟩, ⟨S160000x128, g2⟩] concatenates_S160000x128_S160000x256_S160000x128_S160000x512_d1
        (ix2 T c) 1 (by show 1 < 3; omega) S160000x256 x1 rfl rfl 128 rfl (ix2 T ⟨c.val - 128, by omega⟩)
        (fun b hb => by
          match b with
          | ⟨0, _⟩ => rfl
          | ⟨1, _⟩ => exact absurd rfl hb)
        (by show 128 + (c.val - 128) = c.val; omega)
    · rw [dif_neg h2]
      exact concatenate_apply_piece (1 : Fin S160000x512.rank) [⟨S160000x128, g1⟩, ⟨S160000x256, x1⟩, ⟨S160000x128, g2⟩] concatenates_S160000x128_S160000x256_S160000x128_S160000x512_d1
        (ix2 T c) 2 (by show 2 < 3; omega) S160000x128 g2 rfl rfl 384 rfl (ix2 T ⟨c.val - 384, by omega⟩)
        (fun b hb => by
          match b with
          | ⟨0, _⟩ => rfl
          | ⟨1, _⟩ => exact absurd rfl hb)
        (by show 384 + (c.val - 384) = c.val; omega)

/-! The index functions of the generated reads, at an index given by its coordinates. -/

private theorem lidx19 (T : Fin 160000) (n k : Fin 512) : lidx_main_v19 (ix2 T n) k = ix2 T k :=
  funext fun a => Fin.ext (by match a with | ⟨0, _⟩ => rfl | ⟨1, _⟩ => rfl)
private theorem ridx19 (T : Fin 160000) (n k : Fin 512) : ridx_main_v19 (ix2 T n) k = ix2 k n :=
  funext fun a => Fin.ext (by match a with | ⟨0, _⟩ => rfl | ⟨1, _⟩ => rfl)
private theorem bias21 (T : Fin 160000) (n : Fin 512) : idx_main_v20 (idx_main_v21 (ix2 T n)) = ix1 n :=
  funext fun a => Fin.ext (by match a with | ⟨0, _⟩ => rfl)
private theorem lidx24 (T : Fin 160000) (n : Fin 1152) (k : Fin 512) : lidx_main_v24 (ix2 T n) k = ix2 T k :=
  funext fun a => Fin.ext (by match a with | ⟨0, _⟩ => rfl | ⟨1, _⟩ => rfl)
private theorem ridx24 (T : Fin 160000) (n : Fin 1152) (k : Fin 512) : ridx_main_v24 (ix2 T n) k = ix2 k n :=
  funext fun a => Fin.ext (by match a with | ⟨0, _⟩ => rfl | ⟨1, _⟩ => rfl)
private theorem bias26 (T : Fin 160000) (n : Fin 1152) : idx_main_v25 (idx_main_v26 (ix2 T n)) = ix1 n :=
  funext fun a => Fin.ext (by match a with | ⟨0, _⟩ => rfl)
private theorem idx29 (T : Fin 160000) (j : Fin 512) : idx_main_v29 (ix2 T j) = ix2 T (firstCol j) :=
  funext fun a => Fin.ext (by match a with | ⟨0, _⟩ => rfl | ⟨1, _⟩ => rfl)
private theorem idx30 (T : Fin 160000) (j : Fin 128) : idx_main_v30 (ix2 T j) = ix2 T (midCol j) :=
  funext fun a => Fin.ext (by match a with | ⟨0, _⟩ => rfl | ⟨1, _⟩ => rfl)
private theorem idx31 (T : Fin 160000) (j : Fin 512) : idx_main_v31 (ix2 T j) = ix2 T (lastCol j) :=
  funext fun a => Fin.ext (by match a with | ⟨0, _⟩ => rfl | ⟨1, _⟩ => rfl)
private theorem lidx68 (T : Fin 10000) (n k : Fin 512) : lidx_main_v68 (ix2 T n) k = ix2 T k :=
  funext fun a => Fin.ext (by match a with | ⟨0, _⟩ => rfl | ⟨1, _⟩ => rfl)
private theorem ridx68 (T : Fin 10000) (n k : Fin 512) : ridx_main_v68 (ix2 T n) k = ix2 k n :=
  funext fun a => Fin.ext (by match a with | ⟨0, _⟩ => rfl | ⟨1, _⟩ => rfl)
private theorem bias70 (T : Fin 10000) (n : Fin 512) : idx_main_v69 (idx_main_v70 (ix2 T n)) = ix1 n :=
  funext fun a => Fin.ext (by match a with | ⟨0, _⟩ => rfl)
private theorem lidx73 (T : Fin 10000) (j : Fin 128) (k : Fin 512) : lidx_main_v73 (ix2 T j) k = ix2 T k :=
  funext fun a => Fin.ext (by match a with | ⟨0, _⟩ => rfl | ⟨1, _⟩ => rfl)
private theorem ridx73 (T : Fin 10000) (j : Fin 128) (k : Fin 512) : ridx_main_v73 (ix2 T j) k = ix2 k j :=
  funext fun a => Fin.ext (by match a with | ⟨0, _⟩ => rfl | ⟨1, _⟩ => rfl)
private theorem bias75 (T : Fin 10000) (j : Fin 128) : idx_main_v74 (idx_main_v75 (ix2 T j)) = ix1 j :=
  funext fun a => Fin.ext (by match a with | ⟨0, _⟩ => rfl)
private theorem lidx78 (T : Fin 10000) (j k : Fin 128) : lidx_main_v78 (ix2 T j) k = ix2 T k :=
  funext fun a => Fin.ext (by match a with | ⟨0, _⟩ => rfl | ⟨1, _⟩ => rfl)
private theorem ridx78 (T : Fin 10000) (j k : Fin 128) : ridx_main_v78 (ix2 T j) k = ix2 k j :=
  funext fun a => Fin.ext (by match a with | ⟨0, _⟩ => rfl | ⟨1, _⟩ => rfl)
private theorem bias81 (T : Fin 10000) (j : Fin 128) : idx_main_v80 (idx_main_v81 (ix2 T j)) = ix1 j :=
  funext fun a => Fin.ext (by match a with | ⟨0, _⟩ => rfl)
private theorem lidx83 (T : Fin 160000) (j : Fin 128) (k : Fin 256) : lidx_main_v83 (ix2 T j) k = ix2 T k :=
  funext fun a => Fin.ext (by match a with | ⟨0, _⟩ => rfl | ⟨1, _⟩ => rfl)
private theorem ridx83 (T : Fin 160000) (j : Fin 128) (k : Fin 256) : ridx_main_v83 (ix2 T j) k = ix2 k j :=
  funext fun a => Fin.ext (by match a with | ⟨0, _⟩ => rfl | ⟨1, _⟩ => rfl)
private theorem bias86 (T : Fin 160000) (j : Fin 128) : idx_main_v85 (idx_main_v86 (ix2 T j)) = ix1 j :=
  funext fun a => Fin.ext (by match a with | ⟨0, _⟩ => rfl)

/-! The four rectifiers' zero splats: each entry is the value of the zero word. -/

private theorem zero0 (i : S160000x512.Idx) : val_main_call0_v0 (F := Ideal) i = z := by
  rw [val_main_call0_v0_apply, val_main_call0_cst_apply]; rfl
private theorem zero1 (i : S160000x1152.Idx) : val_main_call1_v0 (F := Ideal) i = z := by
  rw [val_main_call1_v0_apply, val_main_call1_cst_apply]; rfl
private theorem zero2 (i : S10000x512.Idx) : val_main_call2_v0 (F := Ideal) i = z := by
  rw [val_main_call2_v0_apply, val_main_call2_cst_apply]; rfl
private theorem zero3 (i : S10000x128.Idx) : val_main_call3_v0 (F := Ideal) i = z := by
  rw [val_main_call3_v0_apply, val_main_call3_cst_apply]; rfl

/-- The rectified first layer at (T, n): the affine layer on row T of the concatenation, rectified. -/
private theorem v23_row (x0 : (⟨S10000x128, .f32⟩ : BufTy).Contents (Elt Ideal)) (x1 : (⟨S160000x256, .f32⟩ : BufTy).Contents (Elt Ideal)) (x2 : (⟨S160000x2, .i32⟩ : BufTy).Contents (Elt Ideal)) (x3 : (⟨S512x512, .f32⟩ : BufTy).Contents (Elt Ideal)) (x4 : (⟨S512, .f32⟩ : BufTy).Contents (Elt Ideal))
    (T : Fin 160000) (n : Fin 512) :
    val_main_v23 (F := Ideal) x0 x1 x2 x3 x4 (ix2 T n)
      = rdense (cat3 (rowOf (val_main_v10 (F := Ideal) x0 x2) T) (rowOf x1 T) (rowOf (val_main_v17 (F := Ideal) x0 x2) T))
          (matOf x3) (vecOf x4) n := by
  rw [val_main_v23_apply, val_main_v22_apply, val_main_v19_apply, val_main_v21_apply, val_main_v20_apply, zero0, bias21]
  unfold rdense dense
  refine congrArg (fun t => max t z) (congrArg (fun s => s + x4 (ix1 n)) (Finset.sum_congr rfl fun k _ => ?_))
  rw [lidx19, ridx19, v18_row]

/-- The rectified second layer's output, all 1152 columns. -/
theorem v28_apply (x0 : (⟨S10000x128, .f32⟩ : BufTy).Contents (Elt Ideal)) (x1 : (⟨S160000x256, .f32⟩ : BufTy).Contents (Elt Ideal)) (x2 : (⟨S160000x2, .i32⟩ : BufTy).Contents (Elt Ideal)) (x3 : (⟨S512x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal))
    (T : Fin 160000) (n : Fin 1152) :
    val_main_v28 (F := Ideal) x0 x1 x2 x3 x4 x5 x6 (ix2 T n)
      = net1 (rowOf (val_main_v10 (F := Ideal) x0 x2) T) (rowOf x1 T) (rowOf (val_main_v17 (F := Ideal) x0 x2) T)
          (matOf x3) (vecOf x4) (matOf x5) (vecOf x6) n := by
  rw [val_main_v28_apply, val_main_v27_apply, val_main_v24_apply, val_main_v26_apply, val_main_v25_apply, zero1, bias26]
  unfold net1
  unfold rdense
  unfold dense
  refine congrArg (fun t => max t z) (congrArg (fun s => s + x6 (ix1 n)) (Finset.sum_congr rfl fun k _ => ?_))
  rw [lidx24, ridx24, v23_row]
  rfl

/-- The subject messages: the first band. -/
theorem v29_apply (x0 : (⟨S10000x128, .f32⟩ : BufTy).Contents (Elt Ideal)) (x1 : (⟨S160000x256, .f32⟩ : BufTy).Contents (Elt Ideal)) (x2 : (⟨S160000x2, .i32⟩ : BufTy).Contents (Elt Ideal)) (x3 : (⟨S512x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal))
    (T : Fin 160000) (j : Fin 512) :
    val_main_v29 (F := Ideal) x0 x1 x2 x3 x4 x5 x6 (ix2 T j)
      = net1 (rowOf (val_main_v10 (F := Ideal) x0 x2) T) (rowOf x1 T) (rowOf (val_main_v17 (F := Ideal) x0 x2) T)
          (matOf x3) (vecOf x4) (matOf x5) (vecOf x6) (firstCol j) := by
  rw [val_main_v29_apply, idx29, v28_apply]

/-- The object messages: the last band. -/
theorem v31_apply (x0 : (⟨S10000x128, .f32⟩ : BufTy).Contents (Elt Ideal)) (x1 : (⟨S160000x256, .f32⟩ : BufTy).Contents (Elt Ideal)) (x2 : (⟨S160000x2, .i32⟩ : BufTy).Contents (Elt Ideal)) (x3 : (⟨S512x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal))
    (T : Fin 160000) (j : Fin 512) :
    val_main_v31 (F := Ideal) x0 x1 x2 x3 x4 x5 x6 (ix2 T j)
      = net1 (rowOf (val_main_v10 (F := Ideal) x0 x2) T) (rowOf x1 T) (rowOf (val_main_v17 (F := Ideal) x0 x2) T)
          (matOf x3) (vecOf x4) (matOf x5) (vecOf x6) (lastCol j) := by
  rw [val_main_v31_apply, idx31, v28_apply]

/-- The new predicate vectors: the middle band, then the residual's product, then its bias. -/
theorem v87_apply (x0 : (⟨S10000x128, .f32⟩ : BufTy).Contents (Elt Ideal)) (x1 : (⟨S160000x256, .f32⟩ : BufTy).Contents (Elt Ideal)) (x2 : (⟨S160000x2, .i32⟩ : BufTy).Contents (Elt Ideal)) (x3 : (⟨S512x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal)) (x13 : (⟨S256x128, .f32⟩ : BufTy).Contents (Elt Ideal)) (x14 : (⟨S128, .f32⟩ : BufTy).Contents (Elt Ideal))
    (T : Fin 160000) (j : Fin 128) :
    val_main_v87 (F := Ideal) x0 x1 x2 x3 x4 x5 x6 x13 x14 (ix2 T j)
      = predOutSplit (net1 (rowOf (val_main_v10 (F := Ideal) x0 x2) T) (rowOf x1 T) (rowOf (val_main_v17 (F := Ideal) x0 x2) T)
          (matOf x3) (vecOf x4) (matOf x5) (vecOf x6) (midCol j))
          (rowOf x1 T) (matOf x13) (vecOf x14) j := by
  rw [val_main_v87_apply, val_main_v84_apply, val_main_v30_apply, idx30, v28_apply, val_main_v83_apply,
    val_main_v86_apply, val_main_v85_apply, bias86]
  unfold predOutSplit
  refine congrArg (fun s => (_ + s) + x14 (ix1 j)) (Finset.sum_congr rfl fun k _ => ?_)
  rw [lidx83, ridx83]

/-- The rectified first layer of the second network at (T, n): the affine layer on the pooled row T, rectified. -/
private theorem v72_row (x0 : (⟨S10000x128, .f32⟩ : BufTy).Contents (Elt Ideal)) (x1 : (⟨S160000x256, .f32⟩ : BufTy).Contents (Elt Ideal)) (x2 : (⟨S160000x2, .i32⟩ : BufTy).Contents (Elt Ideal)) (x3 : (⟨S512x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal)) (x7 : (⟨S512x512, .f32⟩ : BufTy).Contents (Elt Ideal)) (x8 : (⟨S512, .f32⟩ : BufTy).Contents (Elt Ideal))
    (T : Fin 10000) (n : Fin 512) :
    val_main_v72 (F := Ideal) x0 x1 x2 x3 x4 x5 x6 x7 x8 (ix2 T n)
      = rdense (rowOf (val_main_v67 (F := Ideal) x0 x1 x2 x3 x4 x5 x6) T) (matOf x7) (vecOf x8) n := by
  rw [val_main_v72_apply, val_main_v71_apply, val_main_v68_apply, val_main_v70_apply, val_main_v69_apply, zero2, bias70]
  generalize val_main_v67 (F := Ideal) x0 x1 x2 x3 x4 x5 x6 = pl
  unfold rdense dense
  refine congrArg (fun t => max t z) (congrArg (fun s => s + x8 (ix1 n)) (Finset.sum_congr rfl fun k _ => ?_))
  rw [lidx68, ridx68]

/-- The new node vectors: the second network on the pooled row, then the residual's product, then its bias. -/
theorem v82_apply (x0 : (⟨S10000x128, .f32⟩ : BufTy).Contents (Elt Ideal)) (x1 : (⟨S160000x256, .f32⟩ : BufTy).Contents (Elt Ideal)) (x2 : (⟨S160000x2, .i32⟩ : BufTy).Contents (Elt Ideal)) (x3 : (⟨S512x512, .f32⟩ : BufTy).Contents (Elt Ideal)) (x4 : (⟨S512, .f32⟩ : BufTy).Contents (Elt Ideal)) (x5 : (⟨S512x1152, .f32⟩ : BufTy).Contents (Elt Ideal)) (x6 : (⟨S1152, .f32⟩ : BufTy).Contents (Elt Ideal)) (x7 : (⟨S512x512, .f32⟩ : BufTy).Contents (Elt Ideal)) (x8 : (⟨S512, .f32⟩ : BufTy).Contents (Elt Ideal)) (x9 : (⟨S512x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))
    (T : Fin 10000) (j : Fin 128) :
    val_main_v82 (F := Ideal) x0 x1 x2 x3 x4 x5 x6 x7 x8 x9 x10 x11 x12 (ix2 T j)
      = objOutSplit
          (net2 (rowOf (val_main_v67 (F := Ideal) x0 x1 x2 x3 x4 x5 x6) T) (matOf x7) (vecOf x8) (matOf x9) (vecOf x10) j)
          (rowOf x0 T) (matOf x11) (vecOf x12) j := by
  rw [val_main_v82_apply, val_main_v79_apply, val_main_v77_apply, val_main_v76_apply, val_main_v73_apply,
    val_main_v75_apply, val_main_v74_apply, zero3, bias75, val_main_v78_apply, val_main_v81_apply, val_main_v80_apply, bias81]
  unfold objOutSplit
  refine congrArg (fun s => s + x12 (ix1 j)) ?_
  refine congrArg₂ (fun t s => t + s) ?_ (Finset.sum_congr rfl fun k _ => by rw [lidx78, ridx78])
  unfold net2
  unfold rdense
  unfold dense
  refine congrArg (fun t => max t z) (congrArg (fun s => s + x10 (ix1 j)) (Finset.sum_congr rfl fun k _ => ?_))
  rw [lidx73, ridx73, v72_row]
  rfl

end Cert.RefValue

end
-- ==== Proof.Bridge.lean ====
/-
  The kernel's program and the reference compute the same two arrays.

  Under the precondition every edge index is admissible, so the kernel's guarded gathers are the reference's plain
  gathers of the same wrapped indices. Row by row the first kernel then applies the same first network to the same
  row as the reference does, so its three output arrays are the reference's three bands (the predicate band with the
  residual layer added, grouped as a + (s + b) against the reference's (a + s) + b: one use of associativity).
  Between the kernels both programs pool with the same operations on equal arrays, and the second kernel applies the
  same second network to the same pooled rows, again up to the grouping of the residual sum.
-/
import proofs.«414288_j72103910965765_1_alg».proof.Proof.Fold
import proofs.«414288_j72103910965765_1_alg».proof.Proof.Value0
import proofs.«414288_j72103910965765_1_alg».proof.Proof.Value1
import proofs.«414288_j72103910965765_1_alg».proof.Proof.RefValue

set_option maxRecDepth 16384

noncomputable section

namespace Cert.Bridge

open Cert.KernelIdeal Cert.KernelIdeal.Gen Cert.KernelIdeal.InRange Cert.KernelIdeal.Fold
open Cert.ReferenceIdeal.Read (val_main_v10 val_main_v17 val_main_v28 val_main_v29 val_main_v31 val_main_v67 val_main_v82 val_main_v87)
open Idealize.ShloMosaic Idealize.ShloMosaic.TcCoe Idealize.ShloMosaic.ValueIdx Idealize.SL.Sem Cert.Spec

/-! ## Small facts about rows -/

/-- A vector laid out as a one-row matrix: its row 0 is the vector. -/
theorem row_reshape {N : Nat} (b : (⟨1, ![N]⟩ : Shape).Idx → EReal)
    (h : (⟨1, ![N]⟩ : Shape).ShapeCasts ⟨2, ![1, N]⟩) :
    rowOf (shapeCast ⟨2, ![1, N]⟩ b h) (0 : Fin 1) = vecOf b := by
  funext n
  refine shapeCast_apply b h (ix2 (0 : Fin 1) n) (ix1 n) ?_
  rw [Shape.rowMajor_val_one, Shape.rowMajor_val_two]
  show n.val = (0 : Fin 1).val * _ + n.val
  simp

theorem net1_congr {a a' : Fin 128 → EReal} {p p' : Fin 256 → EReal} {o o' : Fin 128 → EReal}
    {w1 w1' : Fin 512 → Fin 512 → EReal} {b1 b1' : Fin 512 → EReal} {w2 w2' : Fin 512 → Fin 1152 → EReal}
    {b2 b2' : Fin 1152 → EReal} (ha : a = a') (hp : p = p') (ho : o = o') (hw1 : w1 = w1') (hb1 : b1 = b1')
    (hw2 : w2 = w2') (hb2 : b2 = b2') : net1 a p o w1 b1 w2 b2 = net1 a' p' o' w1' b1' w2' b2' := by
  subst ha hp ho hw1 hb1 hw2 hb2; rfl

theorem net2_congr {pl pl' : Fin 512 → EReal} {u1 u1' : Fin 512 → Fin 512 → EReal} {c1 c1' : Fin 512 → EReal}
    {u2 u2' : Fin 512 → Fin 128 → EReal} {c2 c2' : Fin 128 → EReal} (hpl : pl = pl') (hu1 : u1 = u1') (hc1 : c1 = c1')
    (hu2 : u2 = u2') (hc2 : c2 = c2') : net2 pl u1 c1 u2 c2 = net2 pl' u1' c1' u2' c2' := by
  subst hpl hu1 hc1 hu2 hc2; rfl

variable (m : (ℓ : Loc nD τ sig) → Buf (Elt Ideal) ℓ) (ρ : Dev nD → PrngReg)

/-! ## The gathers -/

/-- Under the precondition the kernel's guarded subject gather is the reference's gather. -/
theorem subj_rows (hpre : Cert.Pre_KernelIdeal m) (c : Dev nD) :
    W4 m ρ c (Proc.devRef .tc main_v4) = val_main_v10 (F := Ideal) (m ((c : Thread nD τ).loc main_arg0)) (m ((c : Thread nD τ).loc main_arg2)) := by
  rw [entry0_subj]
  refine (select_guard (F := Ideal) (colS (m ((c : Thread nD τ).loc main_arg2))) (fun p => colS_ok _ (edges_ok m hpre c) p) _ _).trans ?_
  rfl

/-- Likewise the object gather. -/
theorem obj_rows (hpre : Cert.Pre_KernelIdeal m) (c : Dev nD) :
    W4 m ρ c (Proc.devRef .tc main_v5) = val_main_v17 (F := Ideal) (m ((c : Thread nD τ).loc main_arg0)) (m ((c : Thread nD τ).loc main_arg2)) := by
  rw [entry0_obj]
  refine (select_guard (F := Ideal) (colO (m ((c : Thread nD τ).loc main_arg2))) (fun p => colO_ok _ (edges_ok m hpre c) p) _ _).trans ?_
  rfl

/-! ## The first kernel's outputs are the reference's three bands -/

/-- The first network on row T of what the first kernel finds is the first network on row T of the reference's
    operands. -/
theorem net1_entry (hpre : Cert.Pre_KernelIdeal m) (c : Dev nD) (T : Fin 160000) :
    net1 (rowOf (V4 m ρ c main_v4 : S160000x128.Idx → EReal) T) (rowOf (V4 m ρ c main_arg1 : S160000x256.Idx → EReal) T)
        (rowOf (V4 m ρ c main_v5 : S160000x128.Idx → EReal) T) (matOf (V4 m ρ c main_v6 : S512x512.Idx → EReal))
        (rowOf (V4 m ρ c main_v9 : S1x512.Idx → EReal) 0) (matOf (V4 m ρ c main_v7 : S512x1152.Idx → EReal))
        (rowOf (V4 m ρ c main_v10 : S1x1152.Idx → EReal) 0)
      = net1 (rowOf (val_main_v10 (F := Ideal) (m ((c : Thread nD τ).loc main_arg0)) (m ((c : Thread nD τ).loc main_arg2))) T) (rowOf (m ((c : Thread nD τ).loc main_arg1)) T)
          (rowOf (val_main_v17 (F := Ideal) (m ((c : Thread nD τ).loc main_arg0)) (m ((c : Thread nD τ).loc main_arg2))) T) (matOf (m ((c : Thread nD τ).loc main_arg3))) (vecOf (m ((c : Thread nD τ).loc main_arg4))) (matOf (m ((c : Thread nD τ).loc main_arg5))) (vecOf (m ((c : Thread nD τ).loc main_arg6))) :=
  net1_congr
    (congrArg (fun v : S160000x128.Idx → EReal => rowOf v T) (subj_rows m ρ hpre c))
    (congrArg (fun v : S160000x256.Idx → EReal => rowOf v T) (entry0_pred m ρ c))
    (congrArg (fun v : S160000x128.Idx → EReal => rowOf v T) (obj_rows m ρ hpre c))
    (congrArg (fun v : S512x512.Idx → EReal => matOf v) (entry0_w1 m ρ c))
    ((congrArg (fun v : S1x512.Idx → EReal => rowOf v (0 : Fin 1)) (entry0_b1 m ρ c)).trans (row_reshape _ _))
    (congrArg (fun v : S512x1152.Idx → EReal => matOf v) (entry0_w2 m ρ c))
    ((congrArg (fun v : S1x1152.Idx → EReal => rowOf v (0 : Fin 1)) (entry0_b2 m ρ c)).trans (row_reshape _ _))

/-- The subject messages. -/
theorem subjMsgs_eq (hpre : Cert.Pre_KernelIdeal m) (c : Dev nD) :
    (dat0 (F := Ideal) (V4 m ρ) c).arrAt 9 cfg0.N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨T, j, rfl⟩ : ∃ (T : Fin 160000) (j : Fin 512), i = ix2 T j := ⟨i 0, i 1, eq_ix2 i⟩
  refine (Value0.final9_apply (V4 m ρ) c T j).trans ?_
  rw [Cert.RefValue.v29_apply]
  exact congrFun (net1_entry m ρ hpre c T) (firstCol j)

/-- The object messages. -/
theorem objMsgs_eq (hpre : Cert.Pre_KernelIdeal m) (c : Dev nD) :
    (dat0 (F := Ideal) (V4 m ρ) c).arrAt 11 cfg0.N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨T, j, rfl⟩ : ∃ (T : Fin 160000) (j : Fin 512), i = ix2 T j := ⟨i 0, i 1, eq_ix2 i⟩
  refine (Value0.final11_apply (V4 m ρ) c T j).trans ?_
  rw [Cert.RefValue.v31_apply]
  exact congrFun (net1_entry m ρ hpre c T) (lastCol j)

/-- The new predicate vectors: the kernel's a + (s + b) is the reference's (a + s) + b. -/
theorem preds_eq (hpre : Cert.Pre_KernelIdeal m) (c : Dev nD) :
    W7 m ρ c (Proc.devRef .tc main_v12_1) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) := by
  rw [result_preds]
  funext i
  obtain ⟨T, j, rfl⟩ : ∃ (T : Fin 160000) (j : Fin 128), i = ix2 T j := ⟨i 0, i 1, eq_ix2 i⟩
  refine (Value0.final10_apply (V4 m ρ) c T j).trans ?_
  rw [Cert.RefValue.v87_apply, ← predOutWhole_eq_split, net1_entry m ρ hpre c T]
  have hp : rowOf (V4 m ρ c main_arg1 : S160000x256.Idx → EReal) T = rowOf (m ((c : Thread nD τ).loc main_arg1)) T :=
    congrArg (fun v : S160000x256.Idx → EReal => rowOf v T) (entry0_pred m ρ c)
  have hw : matOf (V4 m ρ c main_v8 : S256x128.Idx → EReal) = matOf (m ((c : Thread nD τ).loc main_arg13)) :=
    congrArg (fun v : S256x128.Idx → EReal => matOf v) (entry0_ppw m ρ c)
  have hb : rowOf (V4 m ρ c main_v11 : S1x128.Idx → EReal) (0 : Fin 1) = vecOf (m ((c : Thread nD τ).loc main_arg14)) :=
    (congrArg (fun v : S1x128.Idx → EReal => rowOf v (0 : Fin 1)) (entry0_ppb m ρ c)).trans (row_reshape _ _)
  rw [hp, hw, hb]

/-! ## Between the kernels, and the second kernel -/

/-- Both programs pool with the same operations, on arrays just shown equal. -/
theorem pooled_eq (hpre : Cert.Pre_KernelIdeal m) (c : Dev nD) :
    W6 m ρ c (Proc.devRef .tc main_v48) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [entry1_pooled_of, subjMsgs_eq m ρ hpre c, objMsgs_eq m ρ hpre c]
  rfl

/-- The new node vectors: again a + (s + b) against (a + s) + b. -/
theorem nodes_eq (hpre : Cert.Pre_KernelIdeal m) (c : Dev nD) :
    W7 m ρ c (Proc.devRef .tc main_v55) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [result_nodes]
  funext i
  obtain ⟨T, j, rfl⟩ : ∃ (T : Fin 10000) (j : Fin 128), i = ix2 T j := ⟨i 0, i 1, eq_ix2 i⟩
  refine (Value1.final8_apply (V6 m ρ) c T j).trans ?_
  rw [Cert.RefValue.v82_apply, ← objOutWhole_eq_split]
  have hn : net2 (rowOf (V6 m ρ c main_v48 : S10000x512.Idx → EReal) T) (matOf (V6 m ρ c main_v49 : S512x512.Idx → EReal))
        (rowOf (V6 m ρ c main_v52 : S1x512.Idx → EReal) 0) (matOf (V6 m ρ c main_v50 : S512x128.Idx → EReal))
        (rowOf (V6 m ρ c main_v53 : S1x128.Idx → EReal) 0)
      = net2 (rowOf (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) T) (matOf (m ((c : Thread nD τ).loc main_arg7))) (vecOf (m ((c : Thread nD τ).loc main_arg8))) (matOf (m ((c : Thread nD τ).loc main_arg9))) (vecOf (m ((c : Thread nD τ).loc main_arg10))) :=
    net2_congr
      (congrArg (fun v : S10000x512.Idx → EReal => rowOf v T) (pooled_eq m ρ hpre c))
      (congrArg (fun v : S512x512.Idx → EReal => matOf v) (entry1_u1 m ρ c))
      ((congrArg (fun v : S1x512.Idx → EReal => rowOf v (0 : Fin 1)) (entry1_c1 m ρ c)).trans (row_reshape _ _))
      (congrArg (fun v : S512x128.Idx → EReal => matOf v) (entry1_u2 m ρ c))
      ((congrArg (fun v : S1x128.Idx → EReal => rowOf v (0 : Fin 1)) (entry1_c2 m ρ c)).trans (row_reshape _ _))
  have ho : rowOf (V6 m ρ c main_arg0 : S10000x128.Idx → EReal) T = rowOf (m ((c : Thread nD τ).loc main_arg0)) T :=
    congrArg (fun v : S10000x128.Idx → EReal => rowOf v T) (entry1_nodes m ρ c)
  have hw : matOf (V6 m ρ c main_v51 : S128x128.Idx → EReal) = matOf (m ((c : Thread nD τ).loc main_arg11)) :=
    congrArg (fun v : S128x128.Idx → EReal => matOf v) (entry1_pw m ρ c)
  have hb : rowOf (V6 m ρ c main_v54 : S1x128.Idx → EReal) (0 : Fin 1) = vecOf (m ((c : Thread nD τ).loc main_arg12)) :=
    (congrArg (fun v : S1x128.Idx → EReal => rowOf v (0 : Fin 1)) (entry1_pb m ρ c)).trans (row_reshape _ _)
  rw [hn, ho, hw, hb]

end Cert.Bridge

end
-- ==== Proof.lean ====
/-
  The certificate of `Cert.Claim`: the three programs run without fault and leave their arguments as launched, and
  the idealized kernel program and the idealized reference end with equal results.

  The kernel gathers the node table's rows with a guard (a fixed fill where an edge index is out of range) where the
  reference gathers without one, so the two agree exactly where every edge index is admissible for an axis of extent
  10000: that is the precondition's last conjunct. Under it, row by row, both programs apply the same two-layer
  rectified networks to the same rows, pool with the same operations, and add the same residual layers; they differ
  only in how the last two additions are grouped, and addition of extended reals is associative. No finiteness of
  the inputs is used.
-/
import proofs.«414288_j72103910965765_1_alg».proof.Defs
import proofs.«414288_j72103910965765_1_alg».proof.Proof.Gen.Kernel
import proofs.«414288_j72103910965765_1_alg».proof.Proof.Gen.Kernel.Frame
import proofs.«414288_j72103910965765_1_alg».proof.Proof.Gen.KernelIdeal
import proofs.«414288_j72103910965765_1_alg».proof.Proof.Gen.KernelIdeal.Frame
import proofs.«414288_j72103910965765_1_alg».proof.Proof.Gen.ReferenceIdeal
import proofs.«414288_j72103910965765_1_alg».proof.Proof.Gen.ReferenceIdeal.Run
import proofs.«414288_j72103910965765_1_alg».proof.Proof.Gen.ReferenceIdeal.Read
import proofs.«414288_j72103910965765_1_alg».proof.Proof.Gen.Pre_finite_inputs
import proofs.«414288_j72103910965765_1_alg».proof.Proof.KernelRun
import proofs.«414288_j72103910965765_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both runs end at the reference's two result terms of the kernel program's arguments: the kernel's by the bridge
    (which uses the precondition), the reference's by its own run and the agreement of the two memories on the
    arguments. -/
theorem algebraic : Cert.algebraic_KernelIdeal_ReferenceIdeal := by
  intro m ρ m' ρ' hpre hagree
  refine ⟨fun c => Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.ReferenceIdeal.Read.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.Bridge.nodes_eq m ρ hpre c), (h c).2.1.trans (Cert.Bridge.preds_eq m ρ hpre c), (h c).2.2⟩)
      (Cert.KernelIdeal.RunNamed.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14⟩ := hagree c
      rw [Cert.ReferenceIdeal.Read.val_main_v82_eq, e0, e1, e2, e3, e4, e5, e6, e7, e8, e9, e10, e11, e12]
    · obtain ⟨e0, e1, e2, e3, e4, e5, e6, e7, e8, e9, e10, e11, e12, e13, e14⟩ := hagree c
      refine (Cert.ReferenceIdeal.Read.val_main_v87_eq _ _ _ _ _ _ _ _ _).trans ?_
      rw [e0, e1, e2, e3, e4, e5, e6, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
